-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v68) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1000000x3 : Shape := ⟨2, ![1000000, 3]⟩
abbrev S500x128 : Shape := ⟨2, ![500, 128]⟩
abbrev S512x128 : Shape := ⟨2, ![512, 128]⟩
abbrev S128 : Shape := ⟨1, ![128]⟩
abbrev S128x10 : Shape := ⟨2, ![128, 10]⟩
abbrev S10 : Shape := ⟨1, ![10]⟩
abbrev S100500x10 : Shape := ⟨2, ![100500, 10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S100500x10 : S_.BroadcastsInDim S100500x10 (![] : Fin 0 → Fin S100500x10.rank)
  reducesTo_S100500x10_S_d0_1 : S100500x10.ReducesTo [0, 1] S_

variable [Facts]

def fn_part2 {F : FTy → Type} [FloatOps F] (main_arg8 : FVec F S10 .f32) (main_arg9 : FVec F S100500x10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S100500x10 .f32 := Host.absf main_arg9
  let main_cst_14 : FVec F S_ .f32 := constant S_ .f32 0x7F800000#32
  let main_v40 : FVec F S100500x10 .f32 := broadcastInDim S100500x10 ![] bcast_S_S100500x10 main_cst_14
  let main_v41 : IVec S100500x10 1 := cmpf .olt main_v39 main_v40
  let main_c_15 : IVec S_ 1 := constantI S_ 1 1#1
  let main_v42 : IVec S_ 1 := (fun x v => Host.reduce IntOp.andi x v reducesTo_S100500x10_S_d0_1 h_S_) main_v41 main_c_15
  let main_v43 : IVec S_ 1 := andi main_v38 main_v42
  main_v43

def fn_part1 {F : FTy → Type} [FloatOps F] (main_arg5 : FVec F S128x10 .f32) (main_arg6 : FVec F S10 .f32) (main_arg7 : FVec F S128x10 .f32) (main_arg8 : FVec F S10 .f32) (main_arg9 : FVec F S100500x10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x10 .f32 := Host.absf main_arg5
  let main_cst_6 : FVec F S_ .f32 := constant S_ .f32 0x7F800000#32
  let main_v20 : FVec F S128x10 .f32 := broadcastInDim S128x10 ![] bcast_S_S128x10 main_cst_6
  let main_v21 : IVec S128x10 1 := cmpf .olt main_v19 main_v20
  let main_c_7 : IVec S_ 1 := constantI S_ 1 1#1
  let main_v22 : IVec S_ 1 := (fun x v => Host.reduce IntOp.andi x v reducesTo_S128x10_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S128x10 .f32 := Host.absf main_arg7
  let main_cst_10 : FVec F S_ .f32 := constant S_ .f32 0x7F800000#32
  let main_v30 : FVec F S128x10 .f32 := broadcastInDim S128x10 ![] bcast_S_S128x10 main_cst_10
  let main_v31 : IVec S128x10 1 := cmpf .olt main_v29 main_v30
  let main_c_11 : IVec S_ 1 := constantI S_ 1 1#1
  let main_v32 : IVec S_ 1 := (fun x v => Host.reduce IntOp.andi x v reducesTo_S128x10_S_d0_1 h_S_) main_v31 main_c_11
  let main_v33 : IVec S_ 1 := andi main_v28 main_v32
  fn_part2 (F := F) main_arg8 main_arg9 main_v33

def fn {F : FTy → Type} [FloatOps F] (main_arg0 : FVec F S100000x512 .f32) (main_arg1 : IVec S1000000x3 32) (main_arg2 : FVec F S500x128 .f32) (main_arg3 : FVec F S512x128 .f32) (main_arg4 : FVec F S128 .f32) (main_arg5 : FVec F S128x10 .f32) (main_arg6 : FVec F S10 .f32) (main_arg7 : FVec F S128x10 .f32) (main_arg8 : FVec F S10 .f32) (main_arg9 : FVec F S100500x10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x512 : Shape := ⟨2, ![100000, 512]⟩
abbrev S1000000x3 : Shape := ⟨2, ![1000000, 3]⟩
abbrev S500x128 : Shape := ⟨2, ![500, 128]⟩
abbrev S512x128 : Shape := ⟨2, ![512, 128]⟩
abbrev S128 : Shape := ⟨1, ![128]⟩
abbrev S128x10 : Shape := ⟨2, ![128, 10]⟩
abbrev S10 : Shape := ⟨1, ![10]⟩
abbrev S100500x10 : Shape := ⟨2, ![100500, 10]⟩
abbrev S1000000x1 : Shape := ⟨2, ![1000000, 1]⟩
abbrev S1000000 : Shape := ⟨1, ![1000000]⟩
abbrev S_ : Shape := ⟨0, ![]⟩
abbrev S100500 : Shape := ⟨1, ![100500]⟩
abbrev S2100500 : Shape := ⟨1, ![2100500]⟩
abbrev S2100500x1 : Shape := ⟨2, ![2100500, 1]⟩
abbrev S100000x128 : Shape := ⟨2, ![100000, 128]⟩
abbrev S2000x512 : Shape := ⟨2, ![2000, 512]⟩
abbrev S2000x128 : Shape := ⟨2, ![2000, 128]⟩
abbrev S1x128 : Shape := ⟨2, ![1, 128]⟩
abbrev S100500x128 : Shape := ⟨2, ![100500, 128]⟩
abbrev S128x20 : Shape := ⟨2, ![128, 20]⟩
abbrev S110000x128 : Shape := ⟨2, ![110000, 128]⟩
abbrev S110000x20 : Shape := ⟨2, ![110000, 20]⟩
abbrev S10000x128 : Shape := ⟨2, ![10000, 128]⟩
abbrev S10000x20 : Shape := ⟨2, ![10000, 20]⟩
abbrev S100500x20 : Shape := ⟨2, ![100500, 20]⟩
abbrev S2100500x10 : Shape := ⟨2, ![2100500, 10]⟩
abbrev S1x10 : Shape := ⟨2, ![1, 10]⟩
abbrev S1000000x10 : Shape := ⟨2, ![1000000, 10]⟩
abbrev S20000x10 : Shape := ⟨2, ![20000, 10]⟩

abbrev nBuf : Space → Nat
  | .hbm => 119
  | .vmem => 17
  | .smem => 0
  | _ => 0

abbrev bufTy : (tb : Table) → Fin (tcTables nBuf tb) → BufTy
  | .hbm, ⟨0, _⟩ => ⟨S100000x512, .f32⟩
  | .hbm, ⟨1, _⟩ => ⟨S1000000x3, .i32⟩
  | .hbm, ⟨2, _⟩ => ⟨S500x128, .f32⟩
  | .hbm, ⟨3, _⟩ => ⟨S512x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S128x10, .f32⟩
  | .hbm, ⟨8, _⟩ => ⟨S10, .f32⟩
  | .hbm, ⟨9, _⟩ => ⟨S100500x10, .f32⟩
  | .hbm, ⟨10, _⟩ => ⟨S1000000x1, .i32⟩
  | .hbm, ⟨11, _⟩ => ⟨S1000000, .i32⟩
  | .hbm, ⟨12, _⟩ => ⟨S1000000x1, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S100500, .i32⟩
  | .hbm, ⟨18, _⟩ => ⟨S2100500, .i32⟩
  | .hbm, ⟨19, _⟩ => ⟨S2100500, .i32⟩
  | .hbm, ⟨20, _⟩ => ⟨S_, .f32⟩
  | .hbm, ⟨21, _⟩ => ⟨S2100500, .f32⟩
  | .hbm, ⟨22, _⟩ => ⟨S_, .f32⟩
  | .hbm, ⟨23, _⟩ => ⟨S100500, .f32⟩
  | .hbm, ⟨24, _⟩ => ⟨S2100500x1, .i32⟩
  | .hbm, ⟨25, _⟩ => ⟨S100500, .f32⟩
  | .hbm, ⟨26, _⟩ => ⟨S100500, .f32⟩
  | .hbm, ⟨27, _⟩ => ⟨S_, .i32⟩
  | .hbm, ⟨28, _⟩ => ⟨S2100500, .i32⟩
  | .hbm, ⟨29, _⟩ => ⟨S2100500, .i1⟩
  | .hbm, ⟨30, _⟩ => ⟨S_, .i32⟩
  | .hbm, ⟨31, _⟩ => ⟨S2100500, .i32⟩
  | .hbm, ⟨32, _⟩ => ⟨S2100500, .i32⟩
  | .hbm, ⟨33, _⟩ => ⟨S2100500, .i32⟩
  | .hbm, ⟨34, _⟩ => ⟨S2100500x1, .i32⟩
  | .hbm, ⟨35, _⟩ => ⟨S2100500, .f32⟩
  | .hbm, ⟨36, _⟩ => ⟨S_, .i32⟩
  | .hbm, ⟨37, _⟩ => ⟨S2100500, .i32⟩
  | .hbm, ⟨38, _⟩ => ⟨S2100500, .i1⟩
  | .hbm, ⟨39, _⟩ => ⟨S_, .i32⟩
  | .hbm, ⟨40, _⟩ => ⟨S2100500, .i32⟩
  | .hbm, ⟨41, _⟩ => ⟨S2100500, .i32⟩
  | .hbm, ⟨42, _⟩ => ⟨S2100500, .i32⟩
  | .hbm, ⟨43, _⟩ => ⟨S2100500x1, .i32⟩
  | .hbm, ⟨44, _⟩ => ⟨S2100500, .f32⟩
  | .hbm, ⟨45, _⟩ => ⟨S2100500, .f32⟩
  | .hbm, ⟨46, _⟩ => ⟨S100000x128, .f32⟩
  | .hbm, ⟨47, _⟩ => ⟨S100500x128, .f32⟩
  | .hbm, ⟨48, _⟩ => ⟨S128x20, .f32⟩
  | .hbm, ⟨49, _⟩ => ⟨S_, .i32⟩
  | .hbm, ⟨50, _⟩ => ⟨S_, .f32⟩
  | .hbm, ⟨51, _⟩ => ⟨S110000x128, .f32⟩
  | .hbm, ⟨52, _⟩ => ⟨S110000x20, .f32⟩
  | .hbm, ⟨53, _⟩ => ⟨S100500x20, .f32⟩
  | .hbm, ⟨54, _⟩ => ⟨S100500x10, .f32⟩
  | .hbm, ⟨55, _⟩ => ⟨S100500x10, .f32⟩
  | .hbm, ⟨56, _⟩ => ⟨S_, .i32⟩
  | .hbm, ⟨57, _⟩ => ⟨S2100500, .i32⟩
  | .hbm, ⟨58, _⟩ => ⟨S2100500, .i1⟩
  | .hbm, ⟨59, _⟩ => ⟨S_, .i32⟩
  | .hbm, ⟨60, _⟩ => ⟨S2100500, .i32⟩
  | .hbm, ⟨61, _⟩ => ⟨S2100500, .i32⟩
  | .hbm, ⟨62, _⟩ => ⟨S2100500, .i32⟩
  | .hbm, ⟨63, _⟩ => ⟨S2100500x1, .i32⟩
  | .hbm, ⟨64, _⟩ => ⟨S2100500x10, .f32⟩
  | .hbm, ⟨65, _⟩ => ⟨S2100500x1, .f32⟩
  | .hbm, ⟨66, _⟩ => ⟨S2100500x10, .f32⟩
  | .hbm, ⟨67, _⟩ => ⟨S2100500x10, .f32⟩
  | .hbm, ⟨68, _⟩ => ⟨S_, .f32⟩
  | .hbm, ⟨69, _⟩ => ⟨S100500x10, .f32⟩
  | .hbm, ⟨70, _⟩ => ⟨S2100500x1, .i32⟩
  | .hbm, ⟨71, _⟩ => ⟨S100500x10, .f32⟩
  | .hbm, ⟨72, _⟩ => ⟨S1x10, .f32⟩
  | .hbm, ⟨73, _⟩ => ⟨S100500x10, .f32⟩
  | .hbm, ⟨74, _⟩ => ⟨S100500x10, .f32⟩
  | .hbm, ⟨75, _⟩ => ⟨S_, .i32⟩
  | .hbm, ⟨76, _⟩ => ⟨S2100500, .i32⟩
  | .hbm, ⟨77, _⟩ => ⟨S2100500, .i1⟩
  | .hbm, ⟨78, _⟩ => ⟨S_, .i32⟩
  | .hbm, ⟨79, _⟩ => ⟨S2100500, .i32⟩
  | .hbm, ⟨80, _⟩ => ⟨S2100500, .i32⟩
  | .hbm, ⟨81, _⟩ => ⟨S2100500, .i32⟩
  | .hbm, ⟨82, _⟩ => ⟨S2100500x1, .i32⟩
  | .hbm, ⟨83, _⟩ => ⟨S2100500x10, .f32⟩
  | .hbm, ⟨84, _⟩ => ⟨S2100500x1, .f32⟩
  | .hbm, ⟨85, _⟩ => ⟨S2100500x10, .f32⟩
  | .hbm, ⟨86, _⟩ => ⟨S2100500x10, .f32⟩
  | .hbm, ⟨87, _⟩ => ⟨S_, .f32⟩
  | .hbm, ⟨88, _⟩ => ⟨S100500x10, .f32⟩
  | .hbm, ⟨89, _⟩ => ⟨S2100500x1, .i32⟩
  | .hbm, ⟨90, _⟩ => ⟨S100500x10, .f32⟩
  | .hbm, ⟨91, _⟩ => ⟨S1x10, .f32⟩
  | .hbm, ⟨92, _⟩ => ⟨S100500x10, .f32⟩
  | .hbm, ⟨93, _⟩ => ⟨S100500x10, .f32⟩
  | .hbm, ⟨94, _⟩ => ⟨S_, .f32⟩
  | .hbm, ⟨95, _⟩ => ⟨S100500x10, .f32⟩
  | .hbm, ⟨96, _⟩ => ⟨S100500x10, .f32⟩
  | .hbm, ⟨97, _⟩ => ⟨S100500x10, .f32⟩
  | .hbm, ⟨98, _⟩ => ⟨S100500x10, .f32⟩
  | .hbm, ⟨99, _⟩ => ⟨S100500x10, .f32⟩
  | .hbm, ⟨100, _⟩ => ⟨S_, .i32⟩
  | .hbm, ⟨101, _⟩ => ⟨S1000000, .i32⟩
  | .hbm, ⟨102, _⟩ => ⟨S1000000, .i1⟩
  | .hbm, ⟨103, _⟩ => ⟨S_, .i32⟩
  | .hbm, ⟨104, _⟩ => ⟨S1000000, .i32⟩
  | .hbm, ⟨105, _⟩ => ⟨S1000000, .i32⟩
  | .hbm, ⟨106, _⟩ => ⟨S1000000, .i32⟩
  | .hbm, ⟨107, _⟩ => ⟨S1000000x1, .i32⟩
  | .hbm, ⟨108, _⟩ => ⟨S1000000x10, .f32⟩
  | .hbm, ⟨109, _⟩ => ⟨S_, .i32⟩
  | .hbm, ⟨110, _⟩ => ⟨S1000000, .i32⟩
  | .hbm, ⟨111, _⟩ => ⟨S1000000, .i1⟩
  | .hbm, ⟨112, _⟩ => ⟨S_, .i32⟩
  | .hbm, ⟨113, _⟩ => ⟨S1000000, .i32⟩
  | .hbm, ⟨114, _⟩ => ⟨S1000000, .i32⟩
  | .hbm, ⟨115, _⟩ => ⟨S1000000, .i32⟩
  | .hbm, ⟨116, _⟩ => ⟨S1000000x1, .i32⟩
  | .hbm, ⟨117, _⟩ => ⟨S1000000x10, .f32⟩
  | .hbm, ⟨118, _⟩ => ⟨S1000000x10, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S10000x128, .f32⟩
  | .local _ .vmem, ⟨7, _⟩ => ⟨S10000x128, .f32⟩
  | .local _ .vmem, ⟨8, _⟩ => ⟨S128x20, .f32⟩
  | .local _ .vmem, ⟨9, _⟩ => ⟨S10000x20, .f32⟩
  | .local _ .vmem, ⟨10, _⟩ => ⟨S10000x20, .f32⟩
  | .local _ .vmem, ⟨11, _⟩ => ⟨S20000x10, .f32⟩
  | .local _ .vmem, ⟨12, _⟩ => ⟨S20000x10, .f32⟩
  | .local _ .vmem, ⟨13, _⟩ => ⟨S20000x10, .f32⟩
  | .local _ .vmem, ⟨14, _⟩ => ⟨S20000x10, .f32⟩
  | .local _ .vmem, ⟨15, _⟩ => ⟨S20000x10, .f32⟩
  | .local _ .vmem, ⟨16, _⟩ => ⟨S20000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_call0_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_13 : Ref sig .tc := ⟨.hbm, 100, rfl⟩
abbrev main_v74 : Ref sig .tc := ⟨.hbm, 101, rfl⟩
abbrev main_v75 : Ref sig .tc := ⟨.hbm, 102, rfl⟩
abbrev main_c_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_15 : Ref sig .tc := ⟨.hbm, 109, rfl⟩
abbrev main_v81 : Ref sig .tc := ⟨.hbm, 110, rfl⟩
abbrev main_v82 : Ref sig .tc := ⟨.hbm, 111, rfl⟩
abbrev main_c_16 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x20 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x20 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x10 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S20000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  bcast_S_S1000000 : S_.BroadcastsInDim S1000000 (![] : Fin 0 → Fin S1000000.rank)
  concatenates_S1000000_S1000000_S100500_S2100500_d0 : Shape.Concatenates [S1000000, S1000000, S100500] S2100500 0
  bcast_S_S2100500 : S_.BroadcastsInDim S2100500 (![] : Fin 0 → Fin S2100500.rank)
  bcast_S_S100500 : S_.BroadcastsInDim S100500 (![] : Fin 0 → Fin S100500.rank)
  bcast_S2100500_S2100500x1_0 : S2100500.BroadcastsInDim S2100500x1 (![0] : Fin 1 → Fin S2100500x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  concatenates_S100000x128_S500x128_S100500x128_d0 : Shape.Concatenates [S100000x128, S500x128] S100500x128 0
  concatenates_S128x10_S128x10_S128x20_d1 : Shape.Concatenates [S128x10, S128x10] S128x20 1
  pads_S100500x128_S110000x128_095000_000 : S100500x128.Pads (![0, 0] : Fin 2 → Nat) ![9500, 0] ![0, 0] S110000x128
  h_S_ : 0 < S_.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x20_S128x20_0_0 : ∀ a, (![0, 0] : Fin 2 → Nat) a + S128x20.size a ≤ S128x20.size a
  h_S128x20 : 0 < S128x20.numel
  shapeCasts_S128x20_S128x20 : S128x20.ShapeCasts S128x20
  inb_S10000x20_S10000x20_0_0 : ∀ a, (![0, 0] : Fin 2 → Nat) a + S10000x20.size a ≤ S10000x20.size a
  h_S10000x20 : 0 < S10000x20.numel
  slices_S110000x20_S100500x20_0_0 : S110000x20.Slices ![0, 0] S100500x20
  slices_S100500x20_S100500x10_0_0 : S100500x20.Slices ![0, 0] S100500x10
  slices_S100500x20_S100500x10_0_10 : S100500x20.Slices ![0, 10] S100500x10
  bcast_S2100500x1_S2100500x10_0_1 : S2100500x1.BroadcastsInDim S2100500x10 (![0, 1] : Fin 2 → Fin S2100500x10.rank)
  bcast_S_S100500x10 : S_.BroadcastsInDim S100500x10 (![] : Fin 0 → Fin S100500x10.rank)
  bcast_S10_S1x10_1 : S10.BroadcastsInDim S1x10 (![1] : Fin 1 → Fin S1x10.rank)
  bcast_S1x10_S100500x10_0_1 : S1x10.BroadcastsInDim S100500x10 (![0, 1] : Fin 2 → Fin S100500x10.rank)
  bcast_S1000000_S1000000x1_0 : S1000000.BroadcastsInDim S1000000x1 (![0] : Fin 1 → Fin S1000000x1.rank)
  inb_S20000x10_S20000x10_0_0 : ∀ a, (![0, 0] : Fin 2 → Nat) a + S20000x10.size a ≤ S20000x10.size a
  h_S20000x10 : 0 < S20000x10.numel
  shapeCasts_S20000x10_S20000x10 : S20000x10.ShapeCasts S20000x10
  scatter_S100500_S2100500x1_S2100500_n_0_0_1_wf : ScatterDims.WF S100500 S2100500x1 S2100500 [] [0] [0] 1
  gather_S100500_S2100500x1_S2100500_n_0_n_n_0_1_1_wf : GatherDims.WF S100500 S2100500x1 S2100500 [] [0] [] [0] [] 1 ![1]
  dot_S2000x512_S512x128_S2000x128_1_0_0_1_n_n_wf : DotDims.WF S2000x512 S512x128 S2000x128 [1] [0] [0] [1] [] []
  dot_S10000x128_S128x20_S10000x20_1_0_0_1_n_n_wf : DotDims.WF S10000x128 S128x20 S10000x20 [1] [0] [0] [1] [] []
  gather_S100500x10_S2100500x1_S2100500x10_1_0_n_n_0_1_110_wf : GatherDims.WF S100500x10 S2100500x1 S2100500x10 [1] [0] [] [0] [] 1 ![1, 10]
  scatter_S100500x10_S2100500x1_S2100500x10_1_0_0_1_wf : ScatterDims.WF S100500x10 S2100500x1 S2100500x10 [1] [0] [0] 1
  gather_S100500x10_S1000000x1_S1000000x10_1_0_n_n_0_1_110_wf : GatherDims.WF S100500x10 S1000000x1 S1000000x10 [1] [0] [] [0] [] 1 ![1, 10]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S110000x128.size a
  hwx1_0 : ∀ i : grid1.Coords, EltTy.bits .f32 = 32 ∨ (Rect.block (s := S110000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x20.size a ≤ S128x20.size a
  hwx1_1 : ∀ i : grid1.Coords, EltTy.bits .f32 = 32 ∨ (Rect.block (s := S128x20) S128x20.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x20.size a ≤ S110000x20.size a
  hwx1_2 : ∀ i : grid1.Coords, EltTy.bits .f32 = 32 ∨ (Rect.block (s := S110000x20) S10000x20.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x10.size a ≤ S1000000x10.size a
  hwx2_0 : ∀ i : grid2.Coords, EltTy.bits .f32 = 32 ∨ (Rect.block (s := S1000000x10) S20000x10.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x10.size a ≤ S1000000x10.size a
  hwx2_1 : ∀ i : grid2.Coords, EltTy.bits .f32 = 32 ∨ (Rect.block (s := S1000000x10) S20000x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x10.size a ≤ S1000000x10.size a
  hwx2_2 : ∀ i : grid2.Coords, EltTy.bits .f32 = 32 ∨ (Rect.block (s := S1000000x10) S20000x10.size (cc2_transform_2 i) (hinb2_2 i)).WholeWords (EltTy.packing .f32)

variable [Facts₀]

def scatter_S100500_S2100500x1_S2100500_n_0_0_1 : ScatterDims S100500 S2100500x1 S2100500 where
  updateWindowDims := []
  insertedWindowDims := [0]
  scatterDimsToOperandDims := [0]
  indexVectorDim := 1
  wf := scatter_S100500_S2100500x1_S2100500_n_0_0_1_wf
def gather_S100500_S2100500x1_S2100500_n_0_n_n_0_1_1 : GatherDims S100500 S2100500x1 S2100500 where
  offsetDims := []
  collapsedSliceDims := [0]
  operandBatchingDims := []
  startIndicesBatchingDims := []
  startIndexMap := [0]
  indexVectorDim := 1
  sliceSizes := ![1]
  wf := gather_S100500_S2100500x1_S2100500_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S10000x128_S128x20_S10000x20_1_0_0_1_n_n : DotDims S10000x128 S128x20 S10000x20 where
  lhsContracting := [1]
  rhsContracting := [0]
  lhsNonContracting := [0]
  rhsNonContracting := [1]
  lhsBatch := []
  rhsBatch := []
  wf := dot_S10000x128_S128x20_S10000x20_1_0_0_1_n_n_wf
def gather_S100500x10_S2100500x1_S2100500x10_1_0_n_n_0_1_110 : GatherDims S100500x10 S2100500x1 S2100500x10 where
  offsetDims := [1]
  collapsedSliceDims := [0]
  operandBatchingDims := []
  startIndicesBatchingDims := []
  startIndexMap := [0]
  indexVectorDim := 1
  sliceSizes := ![1, 10]
  wf := gather_S100500x10_S2100500x1_S2100500x10_1_0_n_n_0_1_110_wf
def scatter_S100500x10_S2100500x1_S2100500x10_1_0_0_1 : ScatterDims S100500x10 S2100500x1 S2100500x10 where
  updateWindowDims := [1]
  insertedWindowDims := [0]
  scatterDimsToOperandDims := [0]
  indexVectorDim := 1
  wf := scatter_S100500x10_S2100500x1_S2100500x10_1_0_0_1_wf
def gather_S100500x10_S1000000x1_S1000000x10_1_0_n_n_0_1_110 : GatherDims S100500x10 S1000000x1 S1000000x10 where
  offsetDims := [1]
  collapsedSliceDims := [0]
  operandBatchingDims := []
  startIndicesBatchingDims := []
  startIndexMap := [0]
  indexVectorDim := 1
  sliceSizes := ![1, 10]
  wf := gather_S100500x10_S1000000x1_S1000000x10_1_0_n_n_0_1_110_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S128x20.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S10000x20.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v80) S20000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S20000x10.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v88) S20000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S1000000x3 : Shape := ⟨2, ![1000000, 3]⟩
abbrev S500x128 : Shape := ⟨2, ![500, 128]⟩
abbrev S512x128 : Shape := ⟨2, ![512, 128]⟩
abbrev S128 : Shape := ⟨1, ![128]⟩
abbrev S128x10 : Shape := ⟨2, ![128, 10]⟩
abbrev S10 : Shape := ⟨1, ![10]⟩
abbrev S100500x10 : Shape := ⟨2, ![100500, 10]⟩
abbrev S1000000x1 : Shape := ⟨2, ![1000000, 1]⟩
abbrev S1000000 : Shape := ⟨1, ![1000000]⟩
abbrev S_ : Shape := ⟨0, ![]⟩
abbrev S100500 : Shape := ⟨1, ![100500]⟩
abbrev S2100500 : Shape := ⟨1, ![2100500]⟩
abbrev S2100500x1 : Shape := ⟨2, ![2100500, 1]⟩
abbrev S100000x128 : Shape := ⟨2, ![100000, 128]⟩
abbrev S1x128 : Shape := ⟨2, ![1, 128]⟩
abbrev S100500x128 : Shape := ⟨2, ![100500, 128]⟩
abbrev S2100500x10 : Shape := ⟨2, ![2100500, 10]⟩
abbrev S1x10 : Shape := ⟨2, ![1, 10]⟩
abbrev S1000000x10 : Shape := ⟨2, ![1000000, 10]⟩

abbrev nBuf : Space → Nat
  | .hbm => 119
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1000000x3, .i32⟩
  | .hbm, ⟨2, _⟩ => ⟨S500x128, .f32⟩
  | .hbm, ⟨3, _⟩ => ⟨S512x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S128x10, .f32⟩
  | .hbm, ⟨8, _⟩ => ⟨S10, .f32⟩
  | .hbm, ⟨9, _⟩ => ⟨S100500x10, .f32⟩
  | .hbm, ⟨10, _⟩ => ⟨S1000000x1, .i32⟩
  | .hbm, ⟨11, _⟩ => ⟨S1000000, .i32⟩
  | .hbm, ⟨12, _⟩ => ⟨S1000000x1, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S100500, .i32⟩
  | .hbm, ⟨18, _⟩ => ⟨S2100500, .i32⟩
  | .hbm, ⟨19, _⟩ => ⟨S2100500, .i32⟩
  | .hbm, ⟨20, _⟩ => ⟨S_, .f32⟩
  | .hbm, ⟨21, _⟩ => ⟨S2100500, .f32⟩
  | .hbm, ⟨22, _⟩ => ⟨S_, .f32⟩
  | .hbm, ⟨23, _⟩ => ⟨S100500, .f32⟩
  | .hbm, ⟨24, _⟩ => ⟨S2100500x1, .i32⟩
  | .hbm, ⟨25, _⟩ => ⟨S100500, .f32⟩
  | .hbm, ⟨26, _⟩ => ⟨S100500, .f32⟩
  | .hbm, ⟨27, _⟩ => ⟨S_, .i32⟩
  | .hbm, ⟨28, _⟩ => ⟨S2100500, .i32⟩
  | .hbm, ⟨29, _⟩ => ⟨S2100500, .i1⟩
  | .hbm, ⟨30, _⟩ => ⟨S_, .i32⟩
  | .hbm, ⟨31, _⟩ => ⟨S2100500, .i32⟩
  | .hbm, ⟨32, _⟩ => ⟨S2100500, .i32⟩
  | .hbm, ⟨33, _⟩ => ⟨S2100500, .i32⟩
  | .hbm, ⟨34, _⟩ => ⟨S2100500x1, .i32⟩
  | .hbm, ⟨35, _⟩ => ⟨S2100500, .f32⟩
  | .hbm, ⟨36, _⟩ => ⟨S_, .i32⟩
  | .hbm, ⟨37, _⟩ => ⟨S2100500, .i32⟩
  | .hbm, ⟨38, _⟩ => ⟨S2100500, .i1⟩
  | .hbm, ⟨39, _⟩ => ⟨S_, .i32⟩
  | .hbm, ⟨40, _⟩ => ⟨S2100500, .i32⟩
  | .hbm, ⟨41, _⟩ => ⟨S2100500, .i32⟩
  | .hbm, ⟨42, _⟩ => ⟨S2100500, .i32⟩
  | .hbm, ⟨43, _⟩ => ⟨S2100500x1, .i32⟩
  | .hbm, ⟨44, _⟩ => ⟨S2100500, .f32⟩
  | .hbm, ⟨45, _⟩ => ⟨S2100500, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100500x128, .f32⟩
  | .hbm, ⟨54, _⟩ => ⟨S100500x10, .f32⟩
  | .hbm, ⟨55, _⟩ => ⟨S_, .i32⟩
  | .hbm, ⟨56, _⟩ => ⟨S2100500, .i32⟩
  | .hbm, ⟨57, _⟩ => ⟨S2100500, .i1⟩
  | .hbm, ⟨58, _⟩ => ⟨S_, .i32⟩
  | .hbm, ⟨59, _⟩ => ⟨S2100500, .i32⟩
  | .hbm, ⟨60, _⟩ => ⟨S2100500, .i32⟩
  | .hbm, ⟨61, _⟩ => ⟨S2100500, .i32⟩
  | .hbm, ⟨62, _⟩ => ⟨S2100500x1, .i32⟩
  | .hbm, ⟨63, _⟩ => ⟨S2100500x10, .f32⟩
  | .hbm, ⟨64, _⟩ => ⟨S2100500x1, .f32⟩
  | .hbm, ⟨65, _⟩ => ⟨S2100500x10, .f32⟩
  | .hbm, ⟨66, _⟩ => ⟨S2100500x10, .f32⟩
  | .hbm, ⟨67, _⟩ => ⟨S_, .f32⟩
  | .hbm, ⟨68, _⟩ => ⟨S100500x10, .f32⟩
  | .hbm, ⟨69, _⟩ => ⟨S2100500x1, .i32⟩
  | .hbm, ⟨70, _⟩ => ⟨S100500x10, .f32⟩
  | .hbm, ⟨71, _⟩ => ⟨S1x10, .f32⟩
  | .hbm, ⟨72, _⟩ => ⟨S100500x10, .f32⟩
  | .hbm, ⟨73, _⟩ => ⟨S100500x10, .f32⟩
  | .hbm, ⟨74, _⟩ => ⟨S100500x10, .f32⟩
  | .hbm, ⟨75, _⟩ => ⟨S_, .i32⟩
  | .hbm, ⟨76, _⟩ => ⟨S2100500, .i32⟩
  | .hbm, ⟨77, _⟩ => ⟨S2100500, .i1⟩
  | .hbm, ⟨78, _⟩ => ⟨S_, .i32⟩
  | .hbm, ⟨79, _⟩ => ⟨S2100500, .i32⟩
  | .hbm, ⟨80, _⟩ => ⟨S2100500, .i32⟩
  | .hbm, ⟨81, _⟩ => ⟨S2100500, .i32⟩
  | .hbm, ⟨82, _⟩ => ⟨S2100500x1, .i32⟩
  | .hbm, ⟨83, _⟩ => ⟨S2100500x10, .f32⟩
  | .hbm, ⟨84, _⟩ => ⟨S2100500x1, .f32⟩
  | .hbm, ⟨85, _⟩ => ⟨S2100500x10, .f32⟩
  | .hbm, ⟨86, _⟩ => ⟨S2100500x10, .f32⟩
  | .hbm, ⟨87, _⟩ => ⟨S_, .f32⟩
  | .hbm, ⟨88, _⟩ => ⟨S100500x10, .f32⟩
  | .hbm, ⟨89, _⟩ => ⟨S2100500x1, .i32⟩
  | .hbm, ⟨90, _⟩ => ⟨S100500x10, .f32⟩
  | .hbm, ⟨91, _⟩ => ⟨S1x10, .f32⟩
  | .hbm, ⟨92, _⟩ => ⟨S100500x10, .f32⟩
  | .hbm, ⟨93, _⟩ => ⟨S100500x10, .f32⟩
  | .hbm, ⟨94, _⟩ => ⟨S_, .f32⟩
  | .hbm, ⟨95, _⟩ => ⟨S100500x10, .f32⟩
  | .hbm, ⟨96, _⟩ => ⟨S100500x10, .f32⟩
  | .hbm, ⟨97, _⟩ => ⟨S100500x10, .f32⟩
  | .hbm, ⟨98, _⟩ => ⟨S100500x10, .f32⟩
  | .hbm, ⟨99, _⟩ => ⟨S100500x10, .f32⟩
  | .hbm, ⟨100, _⟩ => ⟨S_, .i32⟩
  | .hbm, ⟨101, _⟩ => ⟨S1000000, .i32⟩
  | .hbm, ⟨102, _⟩ => ⟨S1000000, .i1⟩
  | .hbm, ⟨103, _⟩ => ⟨S_, .i32⟩
  | .hbm, ⟨104, _⟩ => ⟨S1000000, .i32⟩
  | .hbm, ⟨105, _⟩ => ⟨S1000000, .i32⟩
  | .hbm, ⟨106, _⟩ => ⟨S1000000, .i32⟩
  | .hbm, ⟨107, _⟩ => ⟨S1000000x1, .i32⟩
  | .hbm, ⟨108, _⟩ => ⟨S1000000x10, .f32⟩
  | .hbm, ⟨109, _⟩ => ⟨S_, .i32⟩
  | .hbm, ⟨110, _⟩ => ⟨S1000000, .i32⟩
  | .hbm, ⟨111, _⟩ => ⟨S1000000, .i1⟩
  | .hbm, ⟨112, _⟩ => ⟨S_, .i32⟩
  | .hbm, ⟨113, _⟩ => ⟨S1000000, .i32⟩
  | .hbm, ⟨114, _⟩ => ⟨S1000000, .i32⟩
  | .hbm, ⟨115, _⟩ => ⟨S1000000, .i32⟩
  | .hbm, ⟨116, _⟩ => ⟨S1000000x1, .i32⟩
  | .hbm, ⟨117, _⟩ => ⟨S1000000x10, .f32⟩
  | .hbm, ⟨118, _⟩ => ⟨S1000000x10, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_8 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_c_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_14 : Ref sig .tc := ⟨.hbm, 109, rfl⟩
abbrev main_v81 : Ref sig .tc := ⟨.hbm, 110, rfl⟩
abbrev main_v82 : Ref sig .tc := ⟨.hbm, 111, rfl⟩
abbrev main_c_15 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]

class Facts₀ : Prop where
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  bcast_S_S1000000 : S_.BroadcastsInDim S1000000 (![] : Fin 0 → Fin S1000000.rank)
  concatenates_S1000000_S1000000_S100500_S2100500_d0 : Shape.Concatenates [S1000000, S1000000, S100500] S2100500 0
  bcast_S_S2100500 : S_.BroadcastsInDim S2100500 (![] : Fin 0 → Fin S2100500.rank)
  bcast_S_S100500 : S_.BroadcastsInDim S100500 (![] : Fin 0 → Fin S100500.rank)
  bcast_S2100500_S2100500x1_0 : S2100500.BroadcastsInDim S2100500x1 (![0] : Fin 1 → Fin S2100500x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S500x128_S100500x128_d0 : Shape.Concatenates [S100000x128, S500x128] S100500x128 0
  bcast_S2100500x1_S2100500x10_0_1 : S2100500x1.BroadcastsInDim S2100500x10 (![0, 1] : Fin 2 → Fin S2100500x10.rank)
  bcast_S_S100500x10 : S_.BroadcastsInDim S100500x10 (![] : Fin 0 → Fin S100500x10.rank)
  bcast_S10_S1x10_1 : S10.BroadcastsInDim S1x10 (![1] : Fin 1 → Fin S1x10.rank)
  bcast_S1x10_S100500x10_0_1 : S1x10.BroadcastsInDim S100500x10 (![0, 1] : Fin 2 → Fin S100500x10.rank)
  bcast_S1000000_S1000000x1_0 : S1000000.BroadcastsInDim S1000000x1 (![0] : Fin 1 → Fin S1000000x1.rank)
  scatter_S100500_S2100500x1_S2100500_n_0_0_1_wf : ScatterDims.WF S100500 S2100500x1 S2100500 [] [0] [0] 1
  gather_S100500_S2100500x1_S2100500_n_0_n_n_0_1_1_wf : GatherDims.WF S100500 S2100500x1 S2100500 [] [0] [] [0] [] 1 ![1]
  dot_S100000x512_S512x128_S100000x128_1_0_0_1_n_n_wf : DotDims.WF S100000x512 S512x128 S100000x128 [1] [0] [0] [1] [] []
  dot_S100500x128_S128x10_S100500x10_1_0_0_1_n_n_wf : DotDims.WF S100500x128 S128x10 S100500x10 [1] [0] [0] [1] [] []
  gather_S100500x10_S2100500x1_S2100500x10_1_0_n_n_0_1_110_wf : GatherDims.WF S100500x10 S2100500x1 S2100500x10 [1] [0] [] [0] [] 1 ![1, 10]
  scatter_S100500x10_S2100500x1_S2100500x10_1_0_0_1_wf : ScatterDims.WF S100500x10 S2100500x1 S2100500x10 [1] [0] [0] 1
  gather_S100500x10_S1000000x1_S1000000x10_1_0_n_n_0_1_110_wf : GatherDims.WF S100500x10 S1000000x1 S1000000x10 [1] [0] [] [0] [] 1 ![1, 10]

variable [Facts₀]

def scatter_S100500_S2100500x1_S2100500_n_0_0_1 : ScatterDims S100500 S2100500x1 S2100500 where
  updateWindowDims := []
  insertedWindowDims := [0]
  scatterDimsToOperandDims := [0]
  indexVectorDim := 1
  wf := scatter_S100500_S2100500x1_S2100500_n_0_0_1_wf
def gather_S100500_S2100500x1_S2100500_n_0_n_n_0_1_1 : GatherDims S100500 S2100500x1 S2100500 where
  offsetDims := []
  collapsedSliceDims := [0]
  operandBatchingDims := []
  startIndicesBatchingDims := []
  startIndexMap := [0]
  indexVectorDim := 1
  sliceSizes := ![1]
  wf := gather_S100500_S2100500x1_S2100500_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100500x128_S128x10_S100500x10_1_0_0_1_n_n : DotDims S100500x128 S128x10 S100500x10 where
  lhsContracting := [1]
  rhsContracting := [0]
  lhsNonContracting := [0]
  rhsNonContracting := [1]
  lhsBatch := []
  rhsBatch := []
  wf := dot_S100500x128_S128x10_S100500x10_1_0_0_1_n_n_wf
def gather_S100500x10_S2100500x1_S2100500x10_1_0_n_n_0_1_110 : GatherDims S100500x10 S2100500x1 S2100500x10 where
  offsetDims := [1]
  collapsedSliceDims := [0]
  operandBatchingDims := []
  startIndicesBatchingDims := []
  startIndexMap := [0]
  indexVectorDim := 1
  sliceSizes := ![1, 10]
  wf := gather_S100500x10_S2100500x1_S2100500x10_1_0_n_n_0_1_110_wf
def scatter_S100500x10_S2100500x1_S2100500x10_1_0_0_1 : ScatterDims S100500x10 S2100500x1 S2100500x10 where
  updateWindowDims := [1]
  insertedWindowDims := [0]
  scatterDimsToOperandDims := [0]
  indexVectorDim := 1
  wf := scatter_S100500x10_S2100500x1_S2100500x10_1_0_0_1_wf
def gather_S100500x10_S1000000x1_S1000000x10_1_0_n_n_0_1_110 : GatherDims S100500x10 S1000000x1 S1000000x10 where
  offsetDims := [1]
  collapsedSliceDims := [0]
  operandBatchingDims := []
  startIndicesBatchingDims := []
  startIndexMap := [0]
  indexVectorDim := 1
  sliceSizes := ![1, 10]
  wf := gather_S100500x10_S1000000x1_S1000000x10_1_0_n_n_0_1_110_wf

class Facts : Prop extends Facts₀ where

variable [Facts]
-- ==== Proof.KB.Region0.lean ====
/-
  The first pallas_call (the dense layer): at any contents `V` of the core's buffers when the call is entered,
  the block each window stages at a grid point, what the body leaves in the output's staging buffer (the one store's
  value: relu of the 2000-row block of the features times the weights plus the bias row), the body's triple, and the
  pipeline's proof data with its body obligation. The call tiles the 100000 rows in 50 blocks of 2000; the weights and
  the bias are staged once.
-/
import proofs.«100489_j86895778333433_1_alg».proof.Proof.Gen.Kernel.Launch
import proofs.«100489_j86895778333433_1_alg».proof.Proof.Gen.Kernel.Skeleton
import proofs.«100489_j86895778333433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S2000x512 := Rect.unit (s := S2000x512) ![0, 0] S2000x512.size inb_S2000x512_S2000x512_0_0
abbrev r0_w : Rect S512x128 := Rect.unit (s := S512x128) ![0, 0] S512x128.size inb_S512x128_S512x128_0_0
abbrev r0_b : Rect S128 := Rect.unit (s := S128) ![0] S128.size inb_S128_S128_0
abbrev r0_o : Rect S2000x128 := Rect.unit (s := S2000x128) ![0, 0] S2000x128.size inb_S2000x128_S2000x128_0_0

/-- The output's staging buffer after the body: its one store, of the payload of the three loads. -/
def out0_3 (x0 : Vec F S2000x512 .f32) (x1 : Vec F S512x128 .f32) (x2 : Vec F S128 .f32) : Vec F S2000x128 .f32 :=
  View.canon [⟨r0_o, k0_pay1 (View.ld x0 r0_x) (View.ld x1 r0_w) (View.ld x2 r0_b)⟩]

/-- The store covers the buffer. -/
theorem cover0_3 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

set_option maxHeartbeats 1000000 in
/-- The body on whole staging memrefs: the inputs keep their contents, the output's ends at `out0_3` of them. -/
theorem sound_kernel0 (c : Dev nD) (E : Set ℕ) (i : grid0.Coords) (arg1 : Memref sig .tc .vmem S2000x512 .f32) (harg1 : arg1.IsWhole)
    (arg2 : Memref sig .tc .vmem S512x128 .f32) (harg2 : arg2.IsWhole) (arg3 : Memref sig .tc .vmem S128 .f32) (harg3 : arg3.IsWhole)
    (arg4 : Memref sig .tc .vmem S2000x128 .f32) (harg4 : arg4.IsWhole)
    (x0 : Vec F S2000x512 .f32) (x1 : Vec F S512x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__efc_kernel i arg1 harg1 arg2 harg2 arg3 harg3 arg4 harg4) K := by
  simp only [cc0__efc_kernel_eq_skeleton]; unfold cc0__efc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data: the arrays as the call finds them; after the body each input's buffer at its block,
    the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
/-
  The second pallas_call (the fused projection): at any contents `V` of the core's buffers when the call is entered,
  the block each window stages at a grid point, what the body leaves in the output's staging buffer (a 10000-row block
  of the padded node features times the 128x20 matrix of the two weight matrices side by side), the body's triple, and
  the pipeline's proof data with its body obligation. The call tiles the 110000 padded rows in 11 blocks of 10000.
-/
import proofs.«100489_j86895778333433_1_alg».proof.Proof.Gen.Kernel.Launch
import proofs.«100489_j86895778333433_1_alg».proof.Proof.Gen.Kernel.Skeleton
import proofs.«100489_j86895778333433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_a : Rect S10000x128 := Rect.unit (s := S10000x128) ![0, 0] S10000x128.size inb_S10000x128_S10000x128_0_0
abbrev r1_b : Rect S128x20 := Rect.unit (s := S128x20) ![0, 0] S128x20.size inb_S128x20_S128x20_0_0
abbrev r1_o : Rect S10000x20 := Rect.unit (s := S10000x20) ![0, 0] S10000x20.size inb_S10000x20_S10000x20_0_0

/-- The output's staging buffer after the body: its one store, of the payload of the two loads. -/
def out1_2 (x0 : Vec F S10000x128 .f32) (x1 : Vec F S128x20 .f32) : Vec F S10000x20 .f32 :=
  View.canon [⟨r1_o, k1_pay1 (View.ld x0 r1_a) (View.ld x1 r1_b)⟩]

/-- The store covers the buffer. -/
theorem cover1_2 (p0 : Vec F S10000x20 .f32) (y : S10000x20.Idx) :
    ∃ pc ∈ ([⟨r1_o, p0⟩] : List (View.Piece (Elt F) S10000x20 .f32)), y ∈ pc.1.set :=
  View.cover_of_tiled [⟨r1_o, p0⟩] S10000x20.size (by rfl) y

set_option maxHeartbeats 1000000 in
/-- The body on whole staging memrefs: the inputs keep their contents, the output's ends at `out1_2` of them. -/
theorem sound_kernel1 (c : Dev nD) (E : Set ℕ) (i : grid1.Coords) (arg1 : Memref sig .tc .vmem S10000x128 .f32) (harg1 : arg1.IsWhole)
    (arg2 : Memref sig .tc .vmem S128x20 .f32) (harg2 : arg2.IsWhole) (arg3 : Memref sig .tc .vmem S10000x20 .f32) (harg3 : arg3.IsWhole)
    (x0 : Vec F S10000x128 .f32) (x1 : Vec F S128x20 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data: the arrays as the call finds them; after the body each input's buffer at its block,
    the output's at `out1_2` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Region2.lean ====
/-
  The third pallas_call (the decoder's product): at any contents `V` of the core's buffers when the call is entered,
  the block each window stages at a grid point, what the body leaves in the output's staging buffer (the entrywise
  product of the two 20000-row blocks), the body's triple, and the pipeline's proof data with its body obligation.
  The call tiles the 1000000 rows in 50 blocks of 20000.
-/
import proofs.«100489_j86895778333433_1_alg».proof.Proof.Gen.Kernel.Launch
import proofs.«100489_j86895778333433_1_alg».proof.Proof.Gen.Kernel.Skeleton
import proofs.«100489_j86895778333433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_a : Rect S20000x10 := Rect.unit (s := S20000x10) ![0, 0] S20000x10.size inb_S20000x10_S20000x10_0_0
abbrev r2_b : Rect S20000x10 := Rect.unit (s := S20000x10) ![0, 0] S20000x10.size inb_S20000x10_S20000x10_0_0
abbrev r2_o : Rect S20000x10 := Rect.unit (s := S20000x10) ![0, 0] S20000x10.size inb_S20000x10_S20000x10_0_0

/-- The output's staging buffer after the body: its one store, of the payload of the two loads. -/
def out2_2 (x0 : Vec F S20000x10 .f32) (x1 : Vec F S20000x10 .f32) : Vec F S20000x10 .f32 :=
  View.canon [⟨r2_o, k2_pay1 (View.ld x0 r2_a) (View.ld x1 r2_b)⟩]

/-- The store covers the buffer. -/
theorem cover2_2 (p0 : Vec F S20000x10 .f32) (y : S20000x10.Idx) :
    ∃ pc ∈ ([⟨r2_o, p0⟩] : List (View.Piece (Elt F) S20000x10 .f32)), y ∈ pc.1.set :=
  View.cover_of_tiled [⟨r2_o, p0⟩] S20000x10.size (by rfl) y

set_option maxHeartbeats 1000000 in
/-- The body on whole staging memrefs: the inputs keep their contents, the output's ends at `out2_2` of them. -/
theorem sound_kernel2 (c : Dev nD) (E : Set ℕ) (i : grid2.Coords) (arg1 : Memref sig .tc .vmem S20000x10 .f32) (harg1 : arg1.IsWhole)
    (arg2 : Memref sig .tc .vmem S20000x10 .f32) (harg2 : arg2.IsWhole) (arg3 : Memref sig .tc .vmem S20000x10 .f32) (harg3 : arg3.IsWhole)
    (x0 : Vec F S20000x10 .f32) (x1 : Vec F S20000x10 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__mul_kernel i arg1 harg1 arg2 harg2 arg3 harg3) K := by
  simp only [cc2__mul_kernel_eq_skeleton]; unfold cc2__mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data: the arrays as the call finds them; after the body each input's buffer at its block,
    the output's at `out2_2` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Run.lean ====
/-
  The whole run of @main: four stretches of host operations and the three pallas_calls, in order, over the library's
  several-regions launch. Between two items the core holds every unscoped buffer at known contents: the launch
  memory, then each host stretch applied, then each call's arrays at what its write-backs leave. The result: every
  weakly fair execution terminates with every unscoped buffer at the last contents `W7`; no item writes an
  argument array, which gives the frame.
-/
import proofs.«100489_j86895778333433_1_alg».proof.Proof.Gen.Kernel.Launch
import proofs.«100489_j86895778333433_1_alg».proof.Proof.Gen.Kernel.Skeleton
import proofs.«100489_j86895778333433_1_alg».proof.Proof.Gen.Kernel.Points
import proofs.«100489_j86895778333433_1_alg».proof.Proof.KB.Region0
import proofs.«100489_j86895778333433_1_alg».proof.Proof.KB.Region1
import proofs.«100489_j86895778333433_1_alg».proof.Proof.KB.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- The references `hostOps0`'s operations write. -/
abbrev hostOps0_Wl : List (Ref sig .tc) := [main_v0, main_v1, main_v2, main_v3, main_c, main_v4, main_v5, main_v6, main_v7, main_v8, main_cst, main_v9, main_cst_0, main_v10, main_v11, main_v12, main_v13, main_c_1, main_v14, main_v15, main_c_2, main_v16, main_v17, main_v18, main_v19, main_v20, main_c_3, main_v21, main_v22, main_c_4, main_v23, main_v24, main_v25, main_v26, main_v27, main_v28]
theorem hostOps0_writes : (hostOps0 : List (HloOp τ sig (Elt F))).Forall fun op => op.writes ⊆ (hostOps0_Wl.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps0` allocates a buffer. -/
theorem hostOps0_fresh : (hostOps0 : List (HloOp τ sig (Elt F))).Forall fun op => op.fresh = ∅ := by
  simp only [List.Forall]; repeat' constructor

/-- The references `hostOps1`'s operations write. -/
abbrev hostOps1_Wl : List (Ref sig .tc) := [main_v30, main_v31, main_c_5]
theorem hostOps1_writes : (hostOps1 : List (HloOp τ sig (Elt F))).Forall fun op => op.writes ⊆ (hostOps1_Wl.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps1` allocates a buffer. -/
theorem hostOps1_fresh : (hostOps1 : List (HloOp τ sig (Elt F))).Forall fun op => op.fresh = ∅ := by
  simp only [List.Forall]; repeat' constructor

/-- The references `hostOps1_1`'s operations write. -/
abbrev hostOps1_1_Wl : List (Ref sig .tc) := [main_call0_v0, main_v32]
theorem hostOps1_1_writes : (hostOps1_1 : List (HloOp τ sig (Elt F))).Forall fun op => op.writes ⊆ (hostOps1_1_Wl.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps1_1` allocates a buffer. -/
theorem hostOps1_1_fresh : (hostOps1_1 : List (HloOp τ sig (Elt F))).Forall fun op => op.fresh = ∅ := by
  simp only [List.Forall]; repeat' constructor

set_option maxHeartbeats 4000000 in
/-- The references `hostOps2`'s operations write. -/
abbrev hostOps2_Wl : List (Ref sig .tc) := [main_v34, main_v35, main_v36, main_c_6, main_v37, main_v38, main_c_7, main_v39, main_v40, main_v41, main_v42, main_v43, main_v44, main_v45, main_v46, main_cst_8, main_v47, main_v48, main_v49, main_v50, main_v51, main_v52, main_c_9, main_v53, main_v54, main_c_10, main_v55, main_v56, main_v57, main_v58, main_v59, main_v60, main_v61, main_v62, main_cst_11, main_v63, main_v64, main_v65, main_v66, main_v67, main_v68, main_cst_12, main_v69, main_v70, main_v71, main_v72, main_v73, main_c_13, main_v74, main_v75, main_c_14, main_v76, main_v77, main_v78, main_v79, main_v80, main_c_15, main_v81, main_v82, main_c_16, main_v83, main_v84, main_v85, main_v86, main_v87]
theorem hostOps2_writes : (hostOps2 : List (HloOp τ sig (Elt F))).Forall fun op => op.writes ⊆ (hostOps2_Wl.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
set_option maxHeartbeats 4000000 in
/-- No operation of `hostOps2` allocates a buffer. -/
theorem hostOps2_fresh : (hostOps2 : List (HloOp τ sig (Elt F))).Forall fun op => op.fresh = ∅ := by
  simp only [List.Forall]; repeat' constructor

/-! ## The buffer contents at each boundary -/

/-- Core `c`'s buffers at launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At call 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Every buffer but the call's output array is left as the call found it: an input window's array is only read. -/
theorem W2_keep (c : Dev nD) (b : Ref sig .tc) (hb : b ≠ main_v29) :
    W2 m ρ c (Proc.devRef .tc b) = W1 m ρ c (Proc.devRef .tc b) := by
  by_cases h : ∃ w, Pipeline.arrRef spec0 w = b
  · obtain ⟨w, rfl⟩ := h
    match w, hb with
    | ⟨0, _⟩, _ => exact (W2_arr m ρ c 0).trans (((dat0 (V1 m ρ) c).arrAt_in 0 rfl _).trans (A_eq0 (V1 m ρ) c 0))
    | ⟨1, _⟩, _ => exact (W2_arr m ρ c 1).trans (((dat0 (V1 m ρ) c).arrAt_in 1 rfl _).trans (A_eq0 (V1 m ρ) c 1))
    | ⟨2, _⟩, _ => exact (W2_arr m ρ c 2).trans (((dat0 (V1 m ρ) c).arrAt_in 2 rfl _).trans (A_eq0 (V1 m ρ) c 2))
    | ⟨3, _⟩, hb => exact absurd rfl hb
  · exact W2_of_ne m ρ c b fun w e => h ⟨w, e⟩

/-- After the second and third host stretches (the second call's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev V4 : (c : Dev nD) → (b : Ref sig .tc) → Buf (Elt F) ((c : Thread nD τ).loc b) := fun c b => W4 m ρ c b

/-- At call 1's exit: its arrays at what the pipeline leaves (the inputs as entered, the output's write-backs
    folded), every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)
/-- Every buffer but the call's output array is left as the call found it: an input window's array is only read. -/
theorem W5_keep (c : Dev nD) (b : Ref sig .tc) (hb : b ≠ main_v33) :
    W5 m ρ c (Proc.devRef .tc b) = W4 m ρ c (Proc.devRef .tc b) := by
  by_cases h : ∃ w, Pipeline.arrRef spec1 w = b
  · obtain ⟨w, rfl⟩ := h
    match w, hb with
    | ⟨0, _⟩, _ => exact (W5_arr m ρ c 0).trans (((dat1 (V4 m ρ) c).arrAt_in 0 rfl _).trans (A_eq1 (V4 m ρ) c 0))
    | ⟨1, _⟩, _ => exact (W5_arr m ρ c 1).trans (((dat1 (V4 m ρ) c).arrAt_in 1 rfl _).trans (A_eq1 (V4 m ρ) c 1))
    | ⟨2, _⟩, hb => exact absurd rfl hb
  · exact W5_of_ne m ρ c b fun w e => h ⟨w, e⟩

/-- After the last host stretch (the third call's entry). -/
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b

/-- At call 2's exit: its arrays at what the pipeline leaves (the inputs as entered, the output's write-backs
    folded), every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)
/-- Every buffer but the call's output array is left as the call found it: an input window's array is only read. -/
theorem W7_keep (c : Dev nD) (b : Ref sig .tc) (hb : b ≠ main_v88) :
    W7 m ρ c (Proc.devRef .tc b) = W6 m ρ c (Proc.devRef .tc b) := by
  by_cases h : ∃ w, Pipeline.arrRef spec2 w = b
  · obtain ⟨w, rfl⟩ := h
    match w, hb with
    | ⟨0, _⟩, _ => exact (W7_arr m ρ c 0).trans (((dat2 (V6 m ρ) c).arrAt_in 0 rfl _).trans (A_eq2 (V6 m ρ) c 0))
    | ⟨1, _⟩, _ => exact (W7_arr m ρ c 1).trans (((dat2 (V6 m ρ) c).arrAt_in 1 rfl _).trans (A_eq2 (V6 m ρ) c 1))
    | ⟨2, _⟩, hb => exact absurd rfl hb
  · exact W7_of_ne m ρ c b fun w e => h ⟨w, e⟩

/-- A buffer that no host stretch writes and that is no call's output ends as launched. -/
theorem W7_untouched (c : Dev nD) (b : Ref sig .tc) (h0 : b ∉ (hostOps0_Wl : List (Ref sig .tc))) (h1 : b ∉ (hostOps1_Wl : List (Ref sig .tc)))
    (h11 : b ∉ (hostOps1_1_Wl : List (Ref sig .tc))) (h2 : b ∉ (hostOps2_Wl : List (Ref sig .tc)))
    (hv29 : b ≠ main_v29) (hv33 : b ≠ main_v33) (hv88 : b ≠ main_v88) :
    W7 m ρ c (Proc.devRef .tc b) = m ((c : Thread nD τ).loc b) :=
  calc W7 m ρ c (Proc.devRef .tc b)
    _ = W6 m ρ c (Proc.devRef .tc b) := W7_keep m ρ c b hv88
    _ = W5 m ρ c (Proc.devRef .tc b) := StableHlo.after_of_writes_sub hostOps2 _ hostOps2_writes h2
    _ = W4 m ρ c (Proc.devRef .tc b) := W5_keep m ρ c b hv33
    _ = W3 m ρ c (Proc.devRef .tc b) := StableHlo.after_of_writes_sub hostOps1_1 _ hostOps1_1_writes h11
    _ = W2 m ρ c (Proc.devRef .tc b) := StableHlo.after_of_writes_sub hostOps1 _ hostOps1_writes h1
    _ = W1 m ρ c (Proc.devRef .tc b) := W2_keep m ρ c b hv29
    _ = W0 m ρ c (Proc.devRef .tc b) := StableHlo.after_of_writes_sub hostOps0 _ hostOps0_writes h0
    _ = m ((c : Thread nD τ).loc b) := rfl

/-! ## The proof data family and the thread state -/

/-- No pipeline has a prefetched table. -/
abbrev adm : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 m ρ c) ∗ ∃ r, prngReg c r)

/-! ## The calls as segments -/

set_option backward.isDefEq.respectTransparency.types false in
/-- The pallas_call number 0 as a segment: entered from every unscoped buffer at the contents before it, left at the
    contents after it. Its arrays are split out of the unscoped buffers and put back at the exit contents; the
    generator register goes into the call's invariant and out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 1 as a segment: entered from every unscoped buffer at the contents before it, left at the
    contents after it. Its arrays are split out of the unscoped buffers and put back at the exit contents; the
    generator register goes into the call's invariant and out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 2 as a segment: entered from every unscoped buffer at the contents before it, left at the
    contents after it. Its arrays are split out of the unscoped buffers and put back at the exit contents; the
    generator register goes into the call's invariant and out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ),
    .host (hseg hostOps2 hostOps2_sub hostOps2_fresh (W5 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W7_untouched m ρ c main_arg0 (by decide) (by decide) (by decide) (by decide) (by decide) (by decide) (by decide)),
    (h c _ (mem_uc main_arg1 (by decide))).trans (W7_untouched m ρ c main_arg1 (by decide) (by decide) (by decide) (by decide) (by decide) (by decide) (by decide)),
    (h c _ (mem_uc main_arg2 (by decide))).trans (W7_untouched m ρ c main_arg2 (by decide) (by decide) (by decide) (by decide) (by decide) (by decide) (by decide)),
    (h c _ (mem_uc main_arg3 (by decide))).trans (W7_untouched m ρ c main_arg3 (by decide) (by decide) (by decide) (by decide) (by decide) (by decide) (by decide)),
    (h c _ (mem_uc main_arg4 (by decide))).trans (W7_untouched m ρ c main_arg4 (by decide) (by decide) (by decide) (by decide) (by decide) (by decide) (by decide)),
    (h c _ (mem_uc main_arg5 (by decide))).trans (W7_untouched m ρ c main_arg5 (by decide) (by decide) (by decide) (by decide) (by decide) (by decide) (by decide)),
    (h c _ (mem_uc main_arg6 (by decide))).trans (W7_untouched m ρ c main_arg6 (by decide) (by decide) (by decide) (by decide) (by decide) (by decide) (by decide)),
    (h c _ (mem_uc main_arg7 (by decide))).trans (W7_untouched m ρ c main_arg7 (by decide) (by decide) (by decide) (by decide) (by decide) (by decide) (by decide)),
    (h c _ (mem_uc main_arg8 (by decide))).trans (W7_untouched m ρ c main_arg8 (by decide) (by decide) (by decide) (by decide) (by decide) (by decide) (by decide)),
    (h c _ (mem_uc main_arg9 (by decide))).trans (W7_untouched m ρ c main_arg9 (by decide) (by decide) (by decide) (by decide) (by decide) (by decide) (by decide))⟩) (run_all m ρ)

end Cert.Kernel.Hand

end
-- ==== Proof.KI.Region0.lean ====
/-
  The first pallas_call (the dense layer): at any contents `V` of the core's buffers when the call is entered,
  the block each window stages at a grid point, what the body leaves in the output's staging buffer (the one store's
  value: relu of the 2000-row block of the features times the weights plus the bias row), the body's triple, and the
  pipeline's proof data with its body obligation. The call tiles the 100000 rows in 50 blocks of 2000; the weights and
  the bias are staged once.
-/
import proofs.«100489_j86895778333433_1_alg».proof.Proof.Gen.KernelIdeal.Launch
import proofs.«100489_j86895778333433_1_alg».proof.Proof.Gen.KernelIdeal.Skeleton
import proofs.«100489_j86895778333433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S2000x512 := Rect.unit (s := S2000x512) ![0, 0] S2000x512.size inb_S2000x512_S2000x512_0_0
abbrev r0_w : Rect S512x128 := Rect.unit (s := S512x128) ![0, 0] S512x128.size inb_S512x128_S512x128_0_0
abbrev r0_b : Rect S128 := Rect.unit (s := S128) ![0] S128.size inb_S128_S128_0
abbrev r0_o : Rect S2000x128 := Rect.unit (s := S2000x128) ![0, 0] S2000x128.size inb_S2000x128_S2000x128_0_0

/-- The output's staging buffer after the body: its one store, of the payload of the three loads. -/
def out0_3 (x0 : Vec F S2000x512 .f32) (x1 : Vec F S512x128 .f32) (x2 : Vec F S128 .f32) : Vec F S2000x128 .f32 :=
  View.canon [⟨r0_o, k0_pay1 (View.ld x0 r0_x) (View.ld x1 r0_w) (View.ld x2 r0_b)⟩]

/-- The store covers the buffer. -/
theorem cover0_3 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

set_option maxHeartbeats 1000000 in
/-- The body on whole staging memrefs: the inputs keep their contents, the output's ends at `out0_3` of them. -/
theorem sound_kernel0 (c : Dev nD) (E : Set ℕ) (i : grid0.Coords) (arg1 : Memref sig .tc .vmem S2000x512 .f32) (harg1 : arg1.IsWhole)
    (arg2 : Memref sig .tc .vmem S512x128 .f32) (harg2 : arg2.IsWhole) (arg3 : Memref sig .tc .vmem S128 .f32) (harg3 : arg3.IsWhole)
    (arg4 : Memref sig .tc .vmem S2000x128 .f32) (harg4 : arg4.IsWhole)
    (x0 : Vec F S2000x512 .f32) (x1 : Vec F S512x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__efc_kernel i arg1 harg1 arg2 harg2 arg3 harg3 arg4 harg4) K := by
  simp only [cc0__efc_kernel_eq_skeleton]; unfold cc0__efc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data: the arrays as the call finds them; after the body each input's buffer at its block,
    the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The second pallas_call (the fused projection): at any contents `V` of the core's buffers when the call is entered,
  the block each window stages at a grid point, what the body leaves in the output's staging buffer (a 10000-row block
  of the padded node features times the 128x20 matrix of the two weight matrices side by side), the body's triple, and
  the pipeline's proof data with its body obligation. The call tiles the 110000 padded rows in 11 blocks of 10000.
-/
import proofs.«100489_j86895778333433_1_alg».proof.Proof.Gen.KernelIdeal.Launch
import proofs.«100489_j86895778333433_1_alg».proof.Proof.Gen.KernelIdeal.Skeleton
import proofs.«100489_j86895778333433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_a : Rect S10000x128 := Rect.unit (s := S10000x128) ![0, 0] S10000x128.size inb_S10000x128_S10000x128_0_0
abbrev r1_b : Rect S128x20 := Rect.unit (s := S128x20) ![0, 0] S128x20.size inb_S128x20_S128x20_0_0
abbrev r1_o : Rect S10000x20 := Rect.unit (s := S10000x20) ![0, 0] S10000x20.size inb_S10000x20_S10000x20_0_0

/-- The output's staging buffer after the body: its one store, of the payload of the two loads. -/
def out1_2 (x0 : Vec F S10000x128 .f32) (x1 : Vec F S128x20 .f32) : Vec F S10000x20 .f32 :=
  View.canon [⟨r1_o, k1_pay1 (View.ld x0 r1_a) (View.ld x1 r1_b)⟩]

/-- The store covers the buffer. -/
theorem cover1_2 (p0 : Vec F S10000x20 .f32) (y : S10000x20.Idx) :
    ∃ pc ∈ ([⟨r1_o, p0⟩] : List (View.Piece (Elt F) S10000x20 .f32)), y ∈ pc.1.set :=
  View.cover_of_tiled [⟨r1_o, p0⟩] S10000x20.size (by rfl) y

set_option maxHeartbeats 1000000 in
/-- The body on whole staging memrefs: the inputs keep their contents, the output's ends at `out1_2` of them. -/
theorem sound_kernel1 (c : Dev nD) (E : Set ℕ) (i : grid1.Coords) (arg1 : Memref sig .tc .vmem S10000x128 .f32) (harg1 : arg1.IsWhole)
    (arg2 : Memref sig .tc .vmem S128x20 .f32) (harg2 : arg2.IsWhole) (arg3 : Memref sig .tc .vmem S10000x20 .f32) (harg3 : arg3.IsWhole)
    (x0 : Vec F S10000x128 .f32) (x1 : Vec F S128x20 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data: the arrays as the call finds them; after the body each input's buffer at its block,
    the output's at `out1_2` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  The third pallas_call (the decoder's product): at any contents `V` of the core's buffers when the call is entered,
  the block each window stages at a grid point, what the body leaves in the output's staging buffer (the entrywise
  product of the two 20000-row blocks), the body's triple, and the pipeline's proof data with its body obligation.
  The call tiles the 1000000 rows in 50 blocks of 20000.
-/
import proofs.«100489_j86895778333433_1_alg».proof.Proof.Gen.KernelIdeal.Launch
import proofs.«100489_j86895778333433_1_alg».proof.Proof.Gen.KernelIdeal.Skeleton
import proofs.«100489_j86895778333433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_a : Rect S20000x10 := Rect.unit (s := S20000x10) ![0, 0] S20000x10.size inb_S20000x10_S20000x10_0_0
abbrev r2_b : Rect S20000x10 := Rect.unit (s := S20000x10) ![0, 0] S20000x10.size inb_S20000x10_S20000x10_0_0
abbrev r2_o : Rect S20000x10 := Rect.unit (s := S20000x10) ![0, 0] S20000x10.size inb_S20000x10_S20000x10_0_0

/-- The output's staging buffer after the body: its one store, of the payload of the two loads. -/
def out2_2 (x0 : Vec F S20000x10 .f32) (x1 : Vec F S20000x10 .f32) : Vec F S20000x10 .f32 :=
  View.canon [⟨r2_o, k2_pay1 (View.ld x0 r2_a) (View.ld x1 r2_b)⟩]

/-- The store covers the buffer. -/
theorem cover2_2 (p0 : Vec F S20000x10 .f32) (y : S20000x10.Idx) :
    ∃ pc ∈ ([⟨r2_o, p0⟩] : List (View.Piece (Elt F) S20000x10 .f32)), y ∈ pc.1.set :=
  View.cover_of_tiled [⟨r2_o, p0⟩] S20000x10.size (by rfl) y

set_option maxHeartbeats 1000000 in
/-- The body on whole staging memrefs: the inputs keep their contents, the output's ends at `out2_2` of them. -/
theorem sound_kernel2 (c : Dev nD) (E : Set ℕ) (i : grid2.Coords) (arg1 : Memref sig .tc .vmem S20000x10 .f32) (harg1 : arg1.IsWhole)
    (arg2 : Memref sig .tc .vmem S20000x10 .f32) (harg2 : arg2.IsWhole) (arg3 : Memref sig .tc .vmem S20000x10 .f32) (harg3 : arg3.IsWhole)
    (x0 : Vec F S20000x10 .f32) (x1 : Vec F S20000x10 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__mul_kernel i arg1 harg1 arg2 harg2 arg3 harg3) K := by
  simp only [cc2__mul_kernel_eq_skeleton]; unfold cc2__mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data: the arrays as the call finds them; after the body each input's buffer at its block,
    the output's at `out2_2` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole run of @main: four stretches of host operations and the three pallas_calls, in order, over the library's
  several-regions launch. Between two items the core holds every unscoped buffer at known contents: the launch
  memory, then each host stretch applied, then each call's arrays at what its write-backs leave. The result: every
  weakly fair execution terminates with every unscoped buffer at the last contents `W7`; no item writes an
  argument array, which gives the frame.
-/
import proofs.«100489_j86895778333433_1_alg».proof.Proof.Gen.KernelIdeal.Launch
import proofs.«100489_j86895778333433_1_alg».proof.Proof.Gen.KernelIdeal.Skeleton
import proofs.«100489_j86895778333433_1_alg».proof.Proof.Gen.KernelIdeal.Points
import proofs.«100489_j86895778333433_1_alg».proof.Proof.KI.Region0
import proofs.«100489_j86895778333433_1_alg».proof.Proof.KI.Region1
import proofs.«100489_j86895778333433_1_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- The references `hostOps0`'s operations write. -/
abbrev hostOps0_Wl : List (Ref sig .tc) := [main_v0, main_v1, main_v2, main_v3, main_c, main_v4, main_v5, main_v6, main_v7, main_v8, main_cst, main_v9, main_cst_0, main_v10, main_v11, main_v12, main_v13, main_c_1, main_v14, main_v15, main_c_2, main_v16, main_v17, main_v18, main_v19, main_v20, main_c_3, main_v21, main_v22, main_c_4, main_v23, main_v24, main_v25, main_v26, main_v27, main_v28]
theorem hostOps0_writes : (hostOps0 : List (HloOp τ sig (Elt F))).Forall fun op => op.writes ⊆ (hostOps0_Wl.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps0` allocates a buffer. -/
theorem hostOps0_fresh : (hostOps0 : List (HloOp τ sig (Elt F))).Forall fun op => op.fresh = ∅ := by
  simp only [List.Forall]; repeat' constructor

/-- The references `hostOps1`'s operations write. -/
abbrev hostOps1_Wl : List (Ref sig .tc) := [main_v30, main_v31, main_c_5]
theorem hostOps1_writes : (hostOps1 : List (HloOp τ sig (Elt F))).Forall fun op => op.writes ⊆ (hostOps1_Wl.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps1` allocates a buffer. -/
theorem hostOps1_fresh : (hostOps1 : List (HloOp τ sig (Elt F))).Forall fun op => op.fresh = ∅ := by
  simp only [List.Forall]; repeat' constructor

/-- The references `hostOps1_1`'s operations write. -/
abbrev hostOps1_1_Wl : List (Ref sig .tc) := [main_call0_v0, main_v32]
theorem hostOps1_1_writes : (hostOps1_1 : List (HloOp τ sig (Elt F))).Forall fun op => op.writes ⊆ (hostOps1_1_Wl.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `hostOps1_1` allocates a buffer. -/
theorem hostOps1_1_fresh : (hostOps1_1 : List (HloOp τ sig (Elt F))).Forall fun op => op.fresh = ∅ := by
  simp only [List.Forall]; repeat' constructor

set_option maxHeartbeats 4000000 in
/-- The references `hostOps2`'s operations write. -/
abbrev hostOps2_Wl : List (Ref sig .tc) := [main_v34, main_v35, main_v36, main_c_6, main_v37, main_v38, main_c_7, main_v39, main_v40, main_v41, main_v42, main_v43, main_v44, main_v45, main_v46, main_cst_8, main_v47, main_v48, main_v49, main_v50, main_v51, main_v52, main_c_9, main_v53, main_v54, main_c_10, main_v55, main_v56, main_v57, main_v58, main_v59, main_v60, main_v61, main_v62, main_cst_11, main_v63, main_v64, main_v65, main_v66, main_v67, main_v68, main_cst_12, main_v69, main_v70, main_v71, main_v72, main_v73, main_c_13, main_v74, main_v75, main_c_14, main_v76, main_v77, main_v78, main_v79, main_v80, main_c_15, main_v81, main_v82, main_c_16, main_v83, main_v84, main_v85, main_v86, main_v87]
theorem hostOps2_writes : (hostOps2 : List (HloOp τ sig (Elt F))).Forall fun op => op.writes ⊆ (hostOps2_Wl.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
set_option maxHeartbeats 4000000 in
/-- No operation of `hostOps2` allocates a buffer. -/
theorem hostOps2_fresh : (hostOps2 : List (HloOp τ sig (Elt F))).Forall fun op => op.fresh = ∅ := by
  simp only [List.Forall]; repeat' constructor

/-! ## The buffer contents at each boundary -/

/-- Core `c`'s buffers at launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At call 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Every buffer but the call's output array is left as the call found it: an input window's array is only read. -/
theorem W2_keep (c : Dev nD) (b : Ref sig .tc) (hb : b ≠ main_v29) :
    W2 m ρ c (Proc.devRef .tc b) = W1 m ρ c (Proc.devRef .tc b) := by
  by_cases h : ∃ w, Pipeline.arrRef spec0 w = b
  · obtain ⟨w, rfl⟩ := h
    match w, hb with
    | ⟨0, _⟩, _ => exact (W2_arr m ρ c 0).trans (((dat0 (V1 m ρ) c).arrAt_in 0 rfl _).trans (A_eq0 (V1 m ρ) c 0))
    | ⟨1, _⟩, _ => exact (W2_arr m ρ c 1).trans (((dat0 (V1 m ρ) c).arrAt_in 1 rfl _).trans (A_eq0 (V1 m ρ) c 1))
    | ⟨2, _⟩, _ => exact (W2_arr m ρ c 2).trans (((dat0 (V1 m ρ) c).arrAt_in 2 rfl _).trans (A_eq0 (V1 m ρ) c 2))
    | ⟨3, _⟩, hb => exact absurd rfl hb
  · exact W2_of_ne m ρ c b fun w e => h ⟨w, e⟩

/-- After the second and third host stretches (the second call's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev V4 : (c : Dev nD) → (b : Ref sig .tc) → Buf (Elt F) ((c : Thread nD τ).loc b) := fun c b => W4 m ρ c b

/-- At call 1's exit: its arrays at what the pipeline leaves (the inputs as entered, the output's write-backs
    folded), every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)
/-- Every buffer but the call's output array is left as the call found it: an input window's array is only read. -/
theorem W5_keep (c : Dev nD) (b : Ref sig .tc) (hb : b ≠ main_v33) :
    W5 m ρ c (Proc.devRef .tc b) = W4 m ρ c (Proc.devRef .tc b) := by
  by_cases h : ∃ w, Pipeline.arrRef spec1 w = b
  · obtain ⟨w, rfl⟩ := h
    match w, hb with
    | ⟨0, _⟩, _ => exact (W5_arr m ρ c 0).trans (((dat1 (V4 m ρ) c).arrAt_in 0 rfl _).trans (A_eq1 (V4 m ρ) c 0))
    | ⟨1, _⟩, _ => exact (W5_arr m ρ c 1).trans (((dat1 (V4 m ρ) c).arrAt_in 1 rfl _).trans (A_eq1 (V4 m ρ) c 1))
    | ⟨2, _⟩, hb => exact absurd rfl hb
  · exact W5_of_ne m ρ c b fun w e => h ⟨w, e⟩

/-- After the last host stretch (the third call's entry). -/
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b

/-- At call 2's exit: its arrays at what the pipeline leaves (the inputs as entered, the output's write-backs
    folded), every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)
/-- Every buffer but the call's output array is left as the call found it: an input window's array is only read. -/
theorem W7_keep (c : Dev nD) (b : Ref sig .tc) (hb : b ≠ main_v88) :
    W7 m ρ c (Proc.devRef .tc b) = W6 m ρ c (Proc.devRef .tc b) := by
  by_cases h : ∃ w, Pipeline.arrRef spec2 w = b
  · obtain ⟨w, rfl⟩ := h
    match w, hb with
    | ⟨0, _⟩, _ => exact (W7_arr m ρ c 0).trans (((dat2 (V6 m ρ) c).arrAt_in 0 rfl _).trans (A_eq2 (V6 m ρ) c 0))
    | ⟨1, _⟩, _ => exact (W7_arr m ρ c 1).trans (((dat2 (V6 m ρ) c).arrAt_in 1 rfl _).trans (A_eq2 (V6 m ρ) c 1))
    | ⟨2, _⟩, hb => exact absurd rfl hb
  · exact W7_of_ne m ρ c b fun w e => h ⟨w, e⟩

/-- A buffer that no host stretch writes and that is no call's output ends as launched. -/
theorem W7_untouched (c : Dev nD) (b : Ref sig .tc) (h0 : b ∉ (hostOps0_Wl : List (Ref sig .tc))) (h1 : b ∉ (hostOps1_Wl : List (Ref sig .tc)))
    (h11 : b ∉ (hostOps1_1_Wl : List (Ref sig .tc))) (h2 : b ∉ (hostOps2_Wl : List (Ref sig .tc)))
    (hv29 : b ≠ main_v29) (hv33 : b ≠ main_v33) (hv88 : b ≠ main_v88) :
    W7 m ρ c (Proc.devRef .tc b) = m ((c : Thread nD τ).loc b) :=
  calc W7 m ρ c (Proc.devRef .tc b)
    _ = W6 m ρ c (Proc.devRef .tc b) := W7_keep m ρ c b hv88
    _ = W5 m ρ c (Proc.devRef .tc b) := StableHlo.after_of_writes_sub hostOps2 _ hostOps2_writes h2
    _ = W4 m ρ c (Proc.devRef .tc b) := W5_keep m ρ c b hv33
    _ = W3 m ρ c (Proc.devRef .tc b) := StableHlo.after_of_writes_sub hostOps1_1 _ hostOps1_1_writes h11
    _ = W2 m ρ c (Proc.devRef .tc b) := StableHlo.after_of_writes_sub hostOps1 _ hostOps1_writes h1
    _ = W1 m ρ c (Proc.devRef .tc b) := W2_keep m ρ c b hv29
    _ = W0 m ρ c (Proc.devRef .tc b) := StableHlo.after_of_writes_sub hostOps0 _ hostOps0_writes h0
    _ = m ((c : Thread nD τ).loc b) := rfl

/-! ## The proof data family and the thread state -/

/-- No pipeline has a prefetched table. -/
abbrev adm : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 m ρ c) ∗ ∃ r, prngReg c r)

/-! ## The calls as segments -/

set_option backward.isDefEq.respectTransparency.types false in
/-- The pallas_call number 0 as a segment: entered from every unscoped buffer at the contents before it, left at the
    contents after it. Its arrays are split out of the unscoped buffers and put back at the exit contents; the
    generator register goes into the call's invariant and out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 1 as a segment: entered from every unscoped buffer at the contents before it, left at the
    contents after it. Its arrays are split out of the unscoped buffers and put back at the exit contents; the
    generator register goes into the call's invariant and out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 2 as a segment: entered from every unscoped buffer at the contents before it, left at the
    contents after it. Its arrays are split out of the unscoped buffers and put back at the exit contents; the
    generator register goes into the call's invariant and out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ),
    .host (hseg hostOps2 hostOps2_sub hostOps2_fresh (W5 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W7_untouched m ρ c main_arg0 (by decide) (by decide) (by decide) (by decide) (by decide) (by decide) (by decide)),
    (h c _ (mem_uc main_arg1 (by decide))).trans (W7_untouched m ρ c main_arg1 (by decide) (by decide) (by decide) (by decide) (by decide) (by decide) (by decide)),
    (h c _ (mem_uc main_arg2 (by decide))).trans (W7_untouched m ρ c main_arg2 (by decide) (by decide) (by decide) (by decide) (by decide) (by decide) (by decide)),
    (h c _ (mem_uc main_arg3 (by decide))).trans (W7_untouched m ρ c main_arg3 (by decide) (by decide) (by decide) (by decide) (by decide) (by decide) (by decide)),
    (h c _ (mem_uc main_arg4 (by decide))).trans (W7_untouched m ρ c main_arg4 (by decide) (by decide) (by decide) (by decide) (by decide) (by decide) (by decide)),
    (h c _ (mem_uc main_arg5 (by decide))).trans (W7_untouched m ρ c main_arg5 (by decide) (by decide) (by decide) (by decide) (by decide) (by decide) (by decide)),
    (h c _ (mem_uc main_arg6 (by decide))).trans (W7_untouched m ρ c main_arg6 (by decide) (by decide) (by decide) (by decide) (by decide) (by decide) (by decide)),
    (h c _ (mem_uc main_arg7 (by decide))).trans (W7_untouched m ρ c main_arg7 (by decide) (by decide) (by decide) (by decide) (by decide) (by decide) (by decide)),
    (h c _ (mem_uc main_arg8 (by decide))).trans (W7_untouched m ρ c main_arg8 (by decide) (by decide) (by decide) (by decide) (by decide) (by decide) (by decide)),
    (h c _ (mem_uc main_arg9 (by decide))).trans (W7_untouched m ρ c main_arg9 (by decide) (by decide) (by decide) (by decide) (by decide) (by decide) (by decide))⟩) (run_all m ρ)

end Cert.KernelIdeal.Hand

end
-- ==== Proof.LibNary3.lean ====
/- A result lemma for `StableHlo.nary` over a literal family of THREE references, in the shape of the library's
   `nary4_result` (Lib/StableHlo/Run.lean) for four: general in the signature, the references and the function. -/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- `nary` over a LITERAL family of three references (a concatenate of three operands, printed `nary ![x, a, b] …`):
    the result buffer holds the function's value at each operand's contents AT ITS OWN REFERENCE — `Fin.cons (F ↑x) …`
    in place of `fun k => F ↑(![x, a, b] k)` —, so that a reading of the line can go on rewriting the operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- `nary3_result` with the result reference un-indexed, as the library's primed result lemmas. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.KI.Tail.lean ====
/-
  The host operations around the three pallas_calls as functions of arrays, and what each stretch leaves in the
  buffers the later items read. The edge lists of the graph (each answer's task and worker, both directions, and one
  self-loop a node), the symmetric normalisation weights from the degrees, the aggregation of a projected feature
  table along the edges with its bias, the reparametrised sample z, and the two gathers of z the decoder multiplies.
-/
import proofs.«100489_j86895778333433_1_alg».proof.Proof.Gen.KernelIdeal.Launch
import proofs.«100489_j86895778333433_1_alg».proof.Proof.LibNary3
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

/-! ## The functions -/

/-- The task index of every answer, -/
def rowOf (a : (⟨S1000000x3, .i32⟩ : BufTy).Contents (Elt F)) : (⟨S1000000, .i32⟩ : BufTy).Contents (Elt F) :=
  shapeCast _ (extractStridedSlice S1000000x1 ![0, 0] a slices_S1000000x3_S1000000x1_0_0) shapeCasts_S1000000x1_S1000000
/-- and its worker's node index (the worker index past the 100000 task nodes). -/
def colOf (a : (⟨S1000000x3, .i32⟩ : BufTy).Contents (Elt F)) : (⟨S1000000, .i32⟩ : BufTy).Contents (Elt F) :=
  addi (shapeCast _ (extractStridedSlice S1000000x1 ![0, 1] a slices_S1000000x3_S1000000x1_0_1) shapeCasts_S1000000x1_S1000000)
    (broadcastInDim S1000000 ![] bcast_S_S1000000 (constantI S_ 32 100000#32))
/-- The edges' target nodes: tasks, workers, then every node (the self-loops), -/
def rows (a : (⟨S1000000x3, .i32⟩ : BufTy).Contents (Elt F)) : (⟨S2100500, .i32⟩ : BufTy).Contents (Elt F) :=
  concatenate S2100500 0 [⟨S1000000, rowOf a⟩, ⟨S1000000, colOf a⟩, ⟨S100500, iotaInDim S100500 32 0⟩] concatenates_S1000000_S1000000_S100500_S2100500_d0
/-- and their source nodes: workers, tasks, then every node. -/
def cols (a : (⟨S1000000x3, .i32⟩ : BufTy).Contents (Elt F)) : (⟨S2100500, .i32⟩ : BufTy).Contents (Elt F) :=
  concatenate S2100500 0 [⟨S1000000, colOf a⟩, ⟨S1000000, rowOf a⟩, ⟨S100500, iotaInDim S100500 32 0⟩] concatenates_S1000000_S1000000_S100500_S2100500_d0
/-- A negative index counted from the end of the 100500 nodes. -/
def wrapE (n : (⟨S2100500, .i32⟩ : BufTy).Contents (Elt F)) : (⟨S2100500, .i32⟩ : BufTy).Contents (Elt F) :=
  select (cmpi .slt n (broadcastInDim S2100500 ![] bcast_S_S2100500 (constantI S_ 32 0#32)))
    (addi n (broadcastInDim S2100500 ![] bcast_S_S2100500 (constantI S_ 32 100500#32))) n
/-- The inverse square root of every node's degree (the count of edges into it). -/
def dinv (r : (⟨S2100500, .i32⟩ : BufTy).Contents (Elt F)) : (⟨S100500, .f32⟩ : BufTy).Contents (Elt F) :=
  Host.rsqrt (Host.scatterAdd scatter_S100500_S2100500x1_S2100500_n_0_0_1 (broadcastInDim S100500 ![] bcast_S_S100500 (constant S_ .f32 0x00000000#32))
    (broadcastInDim S2100500x1 ![0] bcast_S2100500_S2100500x1_0 r) (broadcastInDim S2100500 ![] bcast_S_S2100500 (constant S_ .f32 0x3F800000#32)))
/-- An edge's weight: the product of its two ends' inverse square-root degrees. -/
def edgeW (r cl : (⟨S2100500, .i32⟩ : BufTy).Contents (Elt F)) : (⟨S2100500, .f32⟩ : BufTy).Contents (Elt F) :=
  mulf (Host.gather gather_S100500_S2100500x1_S2100500_n_0_n_n_0_1_1 (dinv r) (broadcastInDim S2100500x1 ![0] bcast_S2100500_S2100500x1_0 (wrapE r)))
    (Host.gather gather_S100500_S2100500x1_S2100500_n_0_n_n_0_1_1 (dinv r) (broadcastInDim S2100500x1 ![0] bcast_S2100500_S2100500x1_0 (wrapE cl)))
/-- The aggregation of a projected feature table `H` along the edges: every edge carries its source's row times its
    weight into its target's row; then the bias row is added. -/
def aggP (H : (⟨S100500x10, .f32⟩ : BufTy).Contents (Elt F)) (r cl : (⟨S2100500, .i32⟩ : BufTy).Contents (Elt F)) (w : (⟨S2100500, .f32⟩ : BufTy).Contents (Elt F)) (b : (⟨S10, .f32⟩ : BufTy).Contents (Elt F)) : (⟨S100500x10, .f32⟩ : BufTy).Contents (Elt F) :=
  addf (Host.scatterAdd scatter_S100500x10_S2100500x1_S2100500x10_1_0_0_1 (broadcastInDim S100500x10 ![] bcast_S_S100500x10 (constant S_ .f32 0x00000000#32))
      (broadcastInDim S2100500x1 ![0] bcast_S2100500_S2100500x1_0 r)
      (mulf (Host.gather gather_S100500x10_S2100500x1_S2100500x10_1_0_n_n_0_1_110 H (broadcastInDim S2100500x1 ![0] bcast_S2100500_S2100500x1_0 (wrapE cl)))
        (broadcastInDim S2100500x10 ![0, 1] bcast_S2100500x1_S2100500x10_0_1 (broadcastInDim S2100500x1 ![0] bcast_S2100500_S2100500x1_0 w))))
    (broadcastInDim S100500x10 ![0, 1] bcast_S1x10_S100500x10_0_1 (broadcastInDim S1x10 ![1] bcast_S10_S1x10_1 b))
/-- The sample: the mean plus the scaled noise times the exponential of the log standard deviation. -/
def zOf (mean ls eps : (⟨S100500x10, .f32⟩ : BufTy).Contents (Elt F)) : (⟨S100500x10, .f32⟩ : BufTy).Contents (Elt F) :=
  addf mean (mulf (mulf eps (broadcastInDim S100500x10 ![] bcast_S_S100500x10 (constant S_ .f32 0x3C23D70A#32))) (Host.exp ls))
/-- The rows of z at a list of 1000000 node indices (negative ones counted from the end). -/
def gat (z : (⟨S100500x10, .f32⟩ : BufTy).Contents (Elt F)) (n : (⟨S1000000, .i32⟩ : BufTy).Contents (Elt F)) : (⟨S1000000x10, .f32⟩ : BufTy).Contents (Elt F) :=
  Host.gather gather_S100500x10_S1000000x1_S1000000x10_1_0_n_n_0_1_110 z (broadcastInDim S1000000x1 ![0] bcast_S1000000_S1000000x1_0
    (select (cmpi .slt n (broadcastInDim S1000000 ![] bcast_S_S1000000 (constantI S_ 32 0#32)))
      (addi n (broadcastInDim S1000000 ![] bcast_S_S1000000 (constantI S_ 32 100500#32))) n))
/-- The two column blocks of the fused projection's result, cut back to the 100500 nodes. -/
def cutMean (h : (⟨S110000x20, .f32⟩ : BufTy).Contents (Elt F)) : (⟨S100500x10, .f32⟩ : BufTy).Contents (Elt F) :=
  extractStridedSlice S100500x10 ![0, 0] (extractStridedSlice S100500x20 ![0, 0] h slices_S110000x20_S100500x20_0_0) slices_S100500x20_S100500x10_0_0
def cutLs (h : (⟨S110000x20, .f32⟩ : BufTy).Contents (Elt F)) : (⟨S100500x10, .f32⟩ : BufTy).Contents (Elt F) :=
  extractStridedSlice S100500x10 ![0, 10] (extractStridedSlice S100500x20 ![0, 0] h slices_S110000x20_S100500x20_0_0) slices_S100500x20_S100500x10_0_10
/-- The node features: the dense layer's rows over the workers' rows, then 9500 zero rows. -/
def padX (x : (⟨S100000x128, .f32⟩ : BufTy).Contents (Elt F)) (a2 : (⟨S500x128, .f32⟩ : BufTy).Contents (Elt F)) : (⟨S110000x128, .f32⟩ : BufTy).Contents (Elt F) :=
  pad S110000x128 ![0, 0] ![9500, 0] ![0, 0] (concatenate S100500x128 0 [⟨S100000x128, x⟩, ⟨S500x128, a2⟩] concatenates_S100000x128_S500x128_S100500x128_d0)
    (sitofp .f32 (constantI S_ 32 0#32)) pads_S100500x128_S110000x128_095000_000 h_S_
/-- The two projection matrices side by side. -/
def wcat (a5 a7 : (⟨S128x10, .f32⟩ : BufTy).Contents (Elt F)) : (⟨S128x20, .f32⟩ : BufTy).Contents (Elt F) :=
  concatenate S128x20 1 [⟨S128x10, a5⟩, ⟨S128x10, a7⟩] concatenates_S128x10_S128x10_S128x20_d1

/-! ## What the stretches leave -/

/-- One pass over a line of host operations: each operation's result at its own buffer is its function's value, at any
    other buffer what was there; a three-piece concatenate reads each piece at its own buffer. -/
macro "line_results" : tactic =>
  `(tactic| (simp (disch := decide) only [after_cons, after_nil,
      nullary_result', unary_result', binary_result', ternary_result', quaternary_result', reshape_result', Cert.LibNary3.nary3_result',
      unaryIndexed_result', binaryIndexed_result',
      nullary_result_ne', unary_result_ne', binary_result_ne', ternary_result_ne', quaternary_result_ne', reshape_result_ne',
      nary_result_ne', unaryIndexed_result_ne', binaryIndexed_result_ne']))

variable (W : Valuation τ sig (Elt F))

set_option maxHeartbeats 4000000 in
theorem ops0_v1 : after hostOps0 W (Proc.devRef .tc main_v1) = rowOf (W (Proc.devRef .tc main_arg1)) := by
  line_results <;> rfl
set_option maxHeartbeats 4000000 in
theorem ops0_v5 : after hostOps0 W (Proc.devRef .tc main_v5) = colOf (W (Proc.devRef .tc main_arg1)) := by
  line_results <;> rfl
set_option maxHeartbeats 4000000 in
theorem ops0_v7 : after hostOps0 W (Proc.devRef .tc main_v7) = rows (W (Proc.devRef .tc main_arg1)) := by
  line_results <;> rfl
set_option maxHeartbeats 4000000 in
theorem ops0_v8 : after hostOps0 W (Proc.devRef .tc main_v8) = cols (W (Proc.devRef .tc main_arg1)) := by
  line_results <;> rfl
set_option maxHeartbeats 4000000 in
theorem ops0_v28 : after hostOps0 W (Proc.devRef .tc main_v28) = edgeW (rows (W (Proc.devRef .tc main_arg1))) (cols (W (Proc.devRef .tc main_arg1))) := by
  line_results <;> rfl

theorem ops1_v31 : after hostOps1 W (Proc.devRef .tc main_v31) = wcat (W (Proc.devRef .tc main_arg5)) (W (Proc.devRef .tc main_arg7)) := by
  line_results <;> rfl
theorem ops11_v32 : after hostOps1_1 (after hostOps1 W) (Proc.devRef .tc main_v32) = padX (W (Proc.devRef .tc main_v29)) (W (Proc.devRef .tc main_arg2)) := by
  line_results <;> rfl
theorem ops11_v31 : after hostOps1_1 (after hostOps1 W) (Proc.devRef .tc main_v31) = wcat (W (Proc.devRef .tc main_arg5)) (W (Proc.devRef .tc main_arg7)) := by
  line_results <;> rfl

set_option maxHeartbeats 8000000 in
theorem ops2_v52 : after hostOps2 W (Proc.devRef .tc main_v52)
    = aggP (cutMean (W (Proc.devRef .tc main_v33))) (W (Proc.devRef .tc main_v7)) (W (Proc.devRef .tc main_v8)) (W (Proc.devRef .tc main_v28)) (W (Proc.devRef .tc main_arg6)) := by
  line_results <;> rfl
set_option maxHeartbeats 8000000 in
theorem ops2_v68 : after hostOps2 W (Proc.devRef .tc main_v68)
    = aggP (cutLs (W (Proc.devRef .tc main_v33))) (W (Proc.devRef .tc main_v7)) (W (Proc.devRef .tc main_v8)) (W (Proc.devRef .tc main_v28)) (W (Proc.devRef .tc main_arg8)) := by
  line_results <;> rfl
set_option maxHeartbeats 8000000 in
theorem ops2_v80 : after hostOps2 W (Proc.devRef .tc main_v80)
    = gat (zOf (aggP (cutMean (W (Proc.devRef .tc main_v33))) (W (Proc.devRef .tc main_v7)) (W (Proc.devRef .tc main_v8)) (W (Proc.devRef .tc main_v28)) (W (Proc.devRef .tc main_arg6)))
        (aggP (cutLs (W (Proc.devRef .tc main_v33))) (W (Proc.devRef .tc main_v7)) (W (Proc.devRef .tc main_v8)) (W (Proc.devRef .tc main_v28)) (W (Proc.devRef .tc main_arg8))) (W (Proc.devRef .tc main_arg9))) (W (Proc.devRef .tc main_v1)) := by
  line_results <;> rfl
set_option maxHeartbeats 8000000 in
theorem ops2_v87 : after hostOps2 W (Proc.devRef .tc main_v87)
    = gat (zOf (aggP (cutMean (W (Proc.devRef .tc main_v33))) (W (Proc.devRef .tc main_v7)) (W (Proc.devRef .tc main_v8)) (W (Proc.devRef .tc main_v28)) (W (Proc.devRef .tc main_arg6)))
        (aggP (cutLs (W (Proc.devRef .tc main_v33))) (W (Proc.devRef .tc main_v7)) (W (Proc.devRef .tc main_v8)) (W (Proc.devRef .tc main_v28)) (W (Proc.devRef .tc main_arg8))) (W (Proc.devRef .tc main_arg9))) (W (Proc.devRef .tc main_v5)) := by
  line_results <;> rfl

end Cert.KernelIdeal.Hand

end
-- ==== Proof.Spec.lean ====
/-
  The two matrix products of the graph-convolution encoder as functions of whole arrays over the extended reals,
  index by index: the dense layer relu(x·W + b) on the 100000 task rows, and the plain product of the padded node
  features with the 128x20 matrix holding the two projection matrices side by side.
-/
import Idealize.ShloMosaic.PureOps.Ideal.Laws
import Idealize.ShloMosaic.Lib.ValueIdx

noncomputable section

namespace Cert.Spec

open Idealize.ShloMosaic Idealize.ShloMosaic.ValueIdx
open scoped BigOperators

/-- Entry (r, h) of relu(x·W + b): the maximum of 0 and the row of x against the column of W plus the bias. -/
def denseAt (x : (⟨2, ![100000, 512]⟩ : Shape).Idx → EReal) (w : (⟨2, ![512, 128]⟩ : Shape).Idx → EReal)
    (b : (⟨1, ![128]⟩ : Shape).Idx → EReal) (r : Fin 100000) (h : Fin 128) : EReal :=
  max ((∑ l : Fin 512, x (ix2 r l) * w (ix2 l h)) + b (ix1 h)) 0

/-- relu(x·W + b) as an array [100000, 128]. -/
def dense (x : (⟨2, ![100000, 512]⟩ : Shape).Idx → EReal) (w : (⟨2, ![512, 128]⟩ : Shape).Idx → EReal)
    (b : (⟨1, ![128]⟩ : Shape).Idx → EReal) : (⟨2, ![100000, 128]⟩ : Shape).Idx → EReal :=
  fun i => denseAt x w b (i 0) (i 1)

theorem dense_apply (x : (⟨2, ![100000, 512]⟩ : Shape).Idx → EReal) (w : (⟨2, ![512, 128]⟩ : Shape).Idx → EReal)
    (b : (⟨1, ![128]⟩ : Shape).Idx → EReal) (r : Fin 100000) (h : Fin 128) :
    dense x w b (ix2 r h) = denseAt x w b r h := rfl

/-- Entry (r, j) of the product of the padded features [110000, 128] with the 128x20 matrix. -/
def projAt (xp : (⟨2, ![110000, 128]⟩ : Shape).Idx → EReal) (wc : (⟨2, ![128, 20]⟩ : Shape).Idx → EReal)
    (r : Fin 110000) (j : Fin 20) : EReal :=
  ∑ l : Fin 128, xp (ix2 r l) * wc (ix2 l j)

/-- That product as an array [110000, 20]. -/
def proj (xp : (⟨2, ![110000, 128]⟩ : Shape).Idx → EReal) (wc : (⟨2, ![128, 20]⟩ : Shape).Idx → EReal) :
    (⟨2, ![110000, 20]⟩ : Shape).Idx → EReal :=
  fun i => projAt xp wc (i 0) (i 1)

theorem proj_apply (xp : (⟨2, ![110000, 128]⟩ : Shape).Idx → EReal) (wc : (⟨2, ![128, 20]⟩ : Shape).Idx → EReal)
    (r : Fin 110000) (j : Fin 20) : proj xp wc (ix2 r j) = projAt xp wc r j := rfl

end Cert.Spec

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.KI.Val0.lean ====
/-
  The dense layer's output array after the whole first call, at the ideal values, as one function of the arrays the
  call finds: entry (r, h) is the maximum of 0 and row r of the features against column h of the weights plus the
  bias at h. The body's stored value is read at an index (the product into the zero accumulator is the sum over the
  512 contracted coordinates, the bias row is repeated down the rows, the maximum against the zero splat); point t
  writes back rows 2000·t … 2000·t + 1999 of that function; the 50 row blocks cover the 100000 rows.
-/
import proofs.«100489_j86895778333433_1_alg».proof.Proof.KI.Region0
import proofs.«100489_j86895778333433_1_alg».proof.Proof.Spec
import proofs.«100489_j86895778333433_1_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The stored value at an index -/

/-- Entry (p, q) of the body's stored value: the maximum of 0 and row p of the first block against column q of the
    second plus the third at q. -/
theorem pay0_apply (x0 : FVec Ideal S2000x512 .f32) (x1 : FVec Ideal S512x128 .f32) (x2 : FVec Ideal S128 .f32)
    (p : Fin 2000) (q : Fin 128) :
    (k0_pay1 (F := Ideal) x0 x1 x2) (ix2 p q) = max ((∑ l : Fin 512, x0 (ix2 p l) * x1 (ix2 l q)) + x2 (ix1 q)) 0 := by
  unfold k0_pay1
  show max (FloatOps.matmul dot_S2000x512_S512x128_S2000x128_1_0_0_1_n_n none (truncf .bf16 x0 bitsLt_bf16_f32)
        (truncf .bf16 x1 bitsLt_bf16_f32) (constant S2000x128 .f32 0x00000000#32) (ix2 p q)
      + broadcastTo S2000x128 (shapeCast S1x128 x2 shapeCasts_S128_S1x128) broadcasts_S1x128_S2000x128 (ix2 p q))
      (Ideal.ofBits .f32 0x00000000#32) = _
  rw [Ideal.ofBits_zero_f32]
  refine congrArg₂ max (congrArg₂ (· + ·) ?_ ?_) rfl
  · exact DenseLayer.matmul_rows_apply dot_S2000x512_S512x128_S2000x128_1_0_0_1_n_n_wf none
      (truncf .bf16 x0 bitsLt_bf16_f32) (truncf .bf16 x1 bitsLt_bf16_f32) p q
  · exact DenseLayer.bias_cast_apply x2 shapeCasts_S128_S1x128 broadcasts_S1x128_S2000x128 p q

/-! ## The blocks the body reads, as rows of the arrays -/

variable (V : (c : Dev nD) → (b : Ref sig .tc) → Buf (Elt Ideal) ((c : Thread nD τ).loc b))

theorem arr0_hz2 : (![0, 0] : Fin 2 → Nat) = fun _ => 0 := funext fun a => by fin_cases a <;> rfl
theorem arr0_hz1 : (![0] : Fin 1 → Nat) = fun _ => 0 := funext fun a => by fin_cases a <;> rfl

/-- The block indices over the grid: the features' and the output's blocks move down the rows with the point, the
    weights' and the bias's stay. -/
theorem arr0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The features' block at point t is rows 2000·t … 2000·t + 1999 of the features. -/
theorem arr0_x (c : Dev nD) (t : Fin cfg0.N) (p : Fin 2000) (l : Fin 512) (r : Fin 100000)
    (hr : r.val = t.val * 2000 + p.val) :
    (iblk0 V c 0 t : Vec Ideal S2000x512 .f32) (ix2 p l) = (V c main_arg0 : S100000x512.Idx → EReal) (ix2 r l) := by
  unfold iblk0
  rw [View.read_apply]
  show V c main_arg0 (((cfg0.win 0).blk t).view.emb (ix2 p l)) = V c main_arg0 (ix2 r l)
  refine congrArg _ ?_
  funext a; apply Fin.ext
  obtain ⟨e0, e1, -⟩ := arr0_idx t
  match a with
  | ⟨0, _⟩ => show win0_0.index t (0 : Fin 2) * 2000 + 1 * p.val = r.val; omega
  | ⟨1, _⟩ => show win0_0.index t (1 : Fin 2) * 512 + 1 * l.val = l.val; omega

/-- The weights' block at every point is the weights. -/
theorem arr0_w (c : Dev nD) (t : Fin cfg0.N) (l : Fin 512) (q : Fin 128) :
    (iblk0 V c 1 t : Vec Ideal S512x128 .f32) (ix2 l q) = (V c main_arg3 : S512x128.Idx → EReal) (ix2 l q) := by
  unfold iblk0
  rw [View.read_apply]
  show V c main_arg3 (((cfg0.win 1).blk t).view.emb (ix2 l q)) = V c main_arg3 (ix2 l q)
  refine congrArg _ ?_
  funext a; apply Fin.ext
  obtain ⟨-, -, e2, e3, -⟩ := arr0_idx t
  match a with
  | ⟨0, _⟩ => show win0_1.index t (0 : Fin 2) * 512 + 1 * l.val = l.val; omega
  | ⟨1, _⟩ => show win0_1.index t (1 : Fin 2) * 128 + 1 * q.val = q.val; omega

/-- The bias's block at every point is the bias. -/
theorem arr0_b (c : Dev nD) (t : Fin cfg0.N) (q : Fin 128) :
    (iblk0 V c 2 t : Vec Ideal S128 .f32) (ix1 q) = (V c main_arg4 : S128.Idx → EReal) (ix1 q) := by
  unfold iblk0
  rw [View.read_apply]
  show V c main_arg4 (((cfg0.win 2).blk t).view.emb (ix1 q)) = V c main_arg4 (ix1 q)
  refine congrArg _ ?_
  funext a; apply Fin.ext
  obtain ⟨-, -, -, -, e4, -⟩ := arr0_idx t
  match a with
  | ⟨0, _⟩ => show win0_2.index t (0 : Fin 1) * 128 + 1 * q.val = q.val; omega

/-! ## What a point writes back -/

/-- The stored value of blocks that are rows of arrays X, W, B is the dense layer of X, W, B on those rows. -/
theorem arr0_pay_dense (X : S100000x512.Idx → EReal) (W : S512x128.Idx → EReal) (B : S128.Idx → EReal)
    (x0 : FVec Ideal S2000x512 .f32) (x1 : FVec Ideal S512x128 .f32) (x2 : FVec Ideal S128 .f32)
    (p : Fin 2000) (q : Fin 128) (r : Fin 100000)
    (h0 : ∀ l : Fin 512, x0 (ix2 p l) = X (ix2 r l)) (h1 : ∀ l : Fin 512, x1 (ix2 l q) = W (ix2 l q))
    (h2 : x2 (ix1 q) = B (ix1 q)) :
    (k0_pay1 (F := Ideal) x0 x1 x2) (ix2 p q) = Cert.Spec.dense X W B (ix2 r q) := by
  rw [pay0_apply, Cert.Spec.dense_apply, h2]
  unfold Cert.Spec.denseAt
  refine congrArg₂ max (congrArg₂ (· + ·) (Finset.sum_congr rfl fun l _ => ?_) rfl) rfl
  rw [h0 l, h1 l]

/-- Point t writes back rows 2000·t … 2000·t + 1999 of the dense layer of the arrays the call finds. -/
theorem arr0_flushed (c : Dev nD) (t : Fin cfg0.N) :
    (dat0 (F := Ideal) V c).flushed 3 t
      = ((cfg0.win 3).blk t).view.read (Elt Ideal)
          (Cert.Spec.dense (V c main_arg0) (V c main_arg3) (V c main_arg4)) := by
  show (cfg0.win 3).cut (grid0.coords t) ((dat0 V c).after 3 t) = _
  rw [after0_3]
  unfold out0_3
  rw [View.canon_unit_zero arr0_hz2]
  simp only [View.ld_unit_zero (S := S2000x512) arr0_hz2, View.ld_unit_zero (S := S512x128) arr0_hz2,
    View.ld_unit_zero (S := S128) arr0_hz1]
  funext j
  obtain ⟨-, -, -, -, -, e5, e6⟩ := arr0_idx t
  have ht : t.val < 50 := lt_of_lt_of_eq t.isLt N_0
  have hj0 : (j 0).val < 2000 := (j 0).isLt
  have hj1 : (j 1).val < 128 := (j 1).isLt
  have ej : (cfg0.win 3).xinj (grid0.coords t) j = ix2 (⟨(j 0).val, hj0⟩ : Fin 2000) (⟨(j 1).val, hj1⟩ : Fin 128) :=
    funext fun a => by match a with | ⟨0, _⟩ => rfl | ⟨1, _⟩ => rfl
  have ei : ((cfg0.win 3).blk t).view.emb j
      = ix2 (⟨t.val * 2000 + (j 0).val, by omega⟩ : Fin 100000) (⟨(j 1).val, hj1⟩ : Fin 128) := by
    funext a; apply Fin.ext
    match a with
    | ⟨0, _⟩ => show win0_3.index t (0 : Fin 2) * 2000 + 1 * (j 0).val = t.val * 2000 + (j 0).val; omega
    | ⟨1, _⟩ => show win0_3.index t (1 : Fin 2) * 128 + 1 * (j 1).val = (j 1).val; omega
  show k0_pay1 (F := Ideal) (iblk0 V c 0 t) (iblk0 V c 1 t) (iblk0 V c 2 t) ((cfg0.win 3).xinj (grid0.coords t) j)
    = Cert.Spec.dense (V c main_arg0) (V c main_arg3) (V c main_arg4) (((cfg0.win 3).blk t).view.emb j)
  refine ((congrArg (k0_pay1 (F := Ideal) (iblk0 V c 0 t) (iblk0 V c 1 t) (iblk0 V c 2 t)) ej).trans
    (arr0_pay_dense (V c main_arg0) (V c main_arg3) (V c main_arg4) (iblk0 V c 0 t) (iblk0 V c 1 t) (iblk0 V c 2 t)
      ⟨(j 0).val, hj0⟩ ⟨(j 1).val, hj1⟩ ⟨t.val * 2000 + (j 0).val, by omega⟩
      (fun l => arr0_x V c t _ l _ rfl) (fun l => arr0_w V c t l _) (arr0_b V c t _))).trans ?_
  exact (congrArg (Cert.Spec.dense (V c main_arg0) (V c main_arg3) (V c main_arg4)) ei).symm

/-! ## The row blocks cover the array -/

/-- An index of the output array is in point t's block iff each coordinate is in the block's range on its axis. -/
theorem arr0_mem (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v29).slice (win0_3.rect t)).set ↔ _
  rw [View.set_slice_whole, Rect.mem_set_unit]
  exact Iff.rfl

/-- Row r of the output is in the block of point r / 2000, and every point writes its block back. -/
theorem arr0_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 50) N_0.symm⟩, rfl⟩
  obtain ⟨-, -, -, -, -, e5, e6⟩ := arr0_idx t
  refine ⟨t, flush0_3 t, ?_⟩
  rw [arr0_mem]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-! ## The array after the call -/

/-- The output array after the whole call is the dense layer of the features, the weights and the bias as the call
    finds them. -/
theorem arr0 (c : Dev nD) :
    (dat0 (F := Ideal) V c).arrAt 3 cfg0.N = Cert.Spec.dense (V c main_arg0) (V c main_arg3) (V c main_arg4) :=
  (dat0 (F := Ideal) V c).arrAt_eq_of_cover 3 (Cert.Spec.dense (V c main_arg0) (V c main_arg3) (V c main_arg4))
    (fun t _ => arr0_flushed V c t) arr0_cover

end Cert.KernelIdeal.Hand

end
-- ==== Proof.KI.Val1.lean ====
/-
  The second pallas_call (the fused projection), read as one array: after the whole call the output array holds, at
  (r, j), the sum over l of the padded features at (r, l) times the 128x20 matrix at (l, j). Each grid point writes
  back a block of 10000 rows; inside a block the body's product into the zero accumulator is that sum on the block's
  rows; the 11 blocks tile the 110000 rows.
-/
import proofs.«100489_j86895778333433_1_alg».proof.Proof.KI.Region1
import proofs.«100489_j86895778333433_1_alg».proof.Proof.Spec
import proofs.«100489_j86895778333433_1_alg».proof.Proof.LibDenseLayer
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The zero offsets, as the constant function. -/
theorem hz1 : (![0, 0] : Fin 2 → Nat) = fun _ => 0 := funext fun a => by fin_cases a <;> rfl

/-- The body's payload at (p, q): row p of the first operand against column q of the second. -/
theorem pay1_apply (x0 : Vec Ideal S10000x128 .f32) (x1 : Vec Ideal S128x20 .f32) (p : Fin 10000) (q : Fin 20) :
    k1_pay1 x0 x1 (ix2 p q) = ∑ l : Fin 128, x0 (ix2 p l) * x1 (ix2 l q) := by
  unfold k1_pay1
  rw [shapeCast_self, shapeCast_self]
  exact DenseLayer.matmul_rows_apply dot_S10000x128_S128x20_S10000x20_1_0_0_1_n_n_wf none x0 x1 p q

/-- When row p of the first operand is row r of an array A and the second operand's column q is column s of an array B,
    the payload at (p, q) is the product of A and B at (r, s). -/
theorem pay1_proj (A : S110000x128.Idx → EReal) (B : S128x20.Idx → EReal)
    (x0 : Vec Ideal S10000x128 .f32) (x1 : Vec Ideal S128x20 .f32) (j : S10000x20.Idx) (i : S110000x20.Idx)
    (p : Fin 10000) (q : Fin 20) (r : Fin 110000) (s : Fin 20) (hj : j = ix2 p q) (hi : i = ix2 r s)
    (h0 : ∀ l : Fin 128, x0 (ix2 p l) = A (ix2 r l)) (h1 : ∀ l : Fin 128, x1 (ix2 l q) = B (ix2 l s)) :
    k1_pay1 x0 x1 j = Cert.Spec.proj A B i := by
  subst hj; subst hi
  refine (pay1_apply x0 x1 p q).trans ?_
  rw [Cert.Spec.proj_apply]
  unfold Cert.Spec.projAt
  exact Finset.sum_congr rfl fun l _ => by rw [h0 l, h1 l]

variable (V : (c : Dev nD) → (b : Ref sig .tc) → Buf (Elt Ideal) ((c : Thread nD τ).loc b))

/-- The printed index maps over the grid: the feature window and the output window move together down the rows, the
    matrix window stays at its one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two arrays as the call finds them. -/
theorem flushed1_eq (c : Dev nD) (t : Fin cfg1.N) :
    (dat1 (F := Ideal) V c).flushed 2 t
      = ((cfg1.win 2).blk t).view.read (Elt Ideal) (Cert.Spec.proj (V c main_v32) (V c main_v31)) := by
  show (cfg1.win 2).cut (grid1.coords t) ((dat1 (F := Ideal) V c).after 2 t) = _
  rw [after1_2]
  unfold out1_2
  rw [View.canon_unit_zero hz1]
  simp only [View.ld_unit_zero (S := S10000x128) hz1, View.ld_unit_zero (S := S128x20) hz1]
  obtain ⟨e0, e1, e2, e3, e4, e5⟩ := idx_facts1 t
  funext j
  show k1_pay1 (iblk1 V c 0 t) (iblk1 V c 1 t) j
    = Cert.Spec.proj (V c main_v32) (V c main_v31) (((cfg1.win 2).blk t).view.emb j)
  refine pay1_proj _ _ _ _ j _ (j 0) (j 1) ((((cfg1.win 2).blk t).view.emb j) 0) ((((cfg1.win 2).blk t).view.emb j) 1)
    (eq_ix2 j) (eq_ix2 _) (fun l => ?_) (fun l => ?_)
  · show V c main_v32 (((cfg1.win 0).blk t).view.emb (ix2 (j 0) l)) = _
    refine congrArg _ (funext fun a => Fin.ext ?_)
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 128 + 1 * l.val = l.val
      omega
  · show V c main_v31 (((cfg1.win 1).blk t).view.emb (ix2 l (j 1))) = _
    refine congrArg _ (funext fun a => Fin.ext ?_)
    match a with
    | ⟨0, _⟩ =>
      show win1_1.index t (0 : Fin 2) * 128 + 1 * l.val = l.val
      omega
    | ⟨1, _⟩ =>
      show win1_1.index t (1 : Fin 2) * 20 + 1 * (j 1).val = win1_2.index t (1 : Fin 2) * 20 + 1 * (j 1).val
      omega

/-- An index of the output array is in point `t`'s block iff each coordinate is in the block's range on its axis. -/
theorem mem_blk1 (t : Fin cfg1.N) (i : S110000x20.Idx) :
    i ∈ ((cfg1.win 2).blk t).view.set
      ↔ ∀ a : Fin 2, win1_2.index t a * S10000x20.size a ≤ (i a).val
          ∧ (i a).val < win1_2.index t a * S10000x20.size a + S10000x20.size a := by
  show i ∈ ((View.whole main_v33).slice (win1_2.rect t)).set ↔ _
  rw [View.set_slice_whole, Rect.mem_set_unit]
  exact Iff.rfl

/-- Row r of the output array lies in the block of point r / 10000: the 11 blocks of 10000 rows tile the 110000 rows. -/
theorem cover1 (i : S110000x20.Idx) :
    ∃ t : Fin cfg1.N, (cfg1.win 2).flush t = true ∧ i ∈ ((cfg1.win 2).blk t).view.set := by
  have hi0 : (i 0).val < 110000 := (i 0).isLt
  have hi1 : (i 1).val < 20 := (i 1).isLt
  have hN : cfg1.N = 11 := N_1
  let t : Fin cfg1.N := ⟨(i 0).val / 10000, by rw [hN]; omega⟩
  obtain ⟨e0, e1, e2, e3, e4, e5⟩ := idx_facts1 t
  have e4' : win1_2.index t (0 : Fin 2) = (i 0).val / 10000 := e4
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 20 ≤ (i 1).val ∧ (i 1).val < win1_2.index t (1 : Fin 2) * 20 + 20
    omega

/-- The output array after the whole call is the product of the padded features with the 128x20 matrix. -/
theorem arr1 (c : Dev nD) :
    (dat1 (F := Ideal) V c).arrAt 2 cfg1.N = Cert.Spec.proj (V c main_v32) (V c main_v31) :=
  (dat1 (F := Ideal) V c).arrAt_eq_of_cover 2 (Cert.Spec.proj (V c main_v32) (V c main_v31))
    (fun t _ => flushed1_eq V c t) cover1

end Cert.KernelIdeal.Hand

end
-- ==== Proof.KI.Val2.lean ====
/-
  The third pallas_call's output array, read whole: after all 50 grid points have written their 20000-row blocks back,
  the array holds the entrywise product of the two operand arrays as the call found them.
-/
import proofs.«100489_j86895778333433_1_alg».proof.Proof.KI.Region2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

theorem zero_offsets2 : (![0, 0] : Fin 2 → Nat) = fun _ => 0 := funext fun a => by fin_cases a <;> rfl

/-- The body's payload is the entrywise product of its two loaded blocks. -/
theorem pay2_mul (x0 x1 : Vec Ideal S20000x10 .f32) : k2_pay1 x0 x1 = mulf (F := Ideal) x0 x1 := by
  unfold k2_pay1
  simp only [shapeCast_self]

/-- Each window's block index at grid point t is (t, 0). -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of the entrywise product of the two operand arrays. -/
theorem flushed2_mul (c : Dev nD) (t : Fin cfg2.N) :
    (dat2 (F := Ideal) V c).flushed 2 t
      = ((cfg2.win 2).blk t).view.read (Elt Ideal)
          (mulf (F := Ideal) (s := S1000000x10) (φ := .f32) (V c main_v80) (V c main_v87)) := by
  show (cfg2.win 2).cut (grid2.coords t) ((dat2 V c).after 2 t) = _
  rw [after2_2]
  unfold out2_2
  rw [View.canon_unit_zero zero_offsets2]
  simp only [View.ld_unit_zero (S := S20000x10) zero_offsets2]
  rw [pay2_mul]
  obtain ⟨e0, e1, e2, e3, e4, e5⟩ := block_index2 t
  funext j
  show FloatOps.mulf (F := Ideal) (φ := .f32)
        ((V c main_v80 : S1000000x10.Idx → Ideal .f32) (((cfg2.win 0).blk t).view.emb j))
        ((V c main_v87 : S1000000x10.Idx → Ideal .f32) (((cfg2.win 1).blk t).view.emb j))
    = FloatOps.mulf (F := Ideal) (φ := .f32)
        ((V c main_v80 : S1000000x10.Idx → Ideal .f32) (((cfg2.win 2).blk t).view.emb j))
        ((V c main_v87 : S1000000x10.Idx → Ideal .f32) (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 20000 + 1 * (j 0).val = win2_2.index t (0 : Fin 2) * 20000 + 1 * (j 0).val; omega
    | ⟨1, _⟩ => show win2_0.index t (1 : Fin 2) * 10 + 1 * (j 1).val = win2_2.index t (1 : Fin 2) * 10 + 1 * (j 1).val; omega
  have h1 : ((cfg2.win 1).blk t).view.emb j = ((cfg2.win 2).blk t).view.emb j := by
    funext a; apply Fin.ext
    match a with
    | ⟨0, _⟩ => show win2_1.index t (0 : Fin 2) * 20000 + 1 * (j 0).val = win2_2.index t (0 : Fin 2) * 20000 + 1 * (j 0).val; omega
    | ⟨1, _⟩ => show win2_1.index t (1 : Fin 2) * 10 + 1 * (j 1).val = win2_2.index t (1 : Fin 2) * 10 + 1 * (j 1).val; omega
  rw [h0, h1]

/-- An index of the array lies in point t's block exactly when each coordinate lies in the block's range on its axis. -/
theorem mem_blk2 (t : Fin cfg2.N) (i : S1000000x10.Idx) :
    i ∈ ((cfg2.win 2).blk t).view.set
      ↔ ∀ a : Fin 2, win2_2.index t a * S20000x10.size a ≤ (i a).val
          ∧ (i a).val < win2_2.index t a * S20000x10.size a + S20000x10.size a := by
  show i ∈ ((View.whole main_v88).slice (win2_2.rect t)).set ↔ _
  rw [View.set_slice_whole, Rect.mem_set_unit]
  exact Iff.rfl

/-- Row r of the array lies in the block of grid point r / 20000: the 50 blocks cover the array. -/
theorem cover2 (i : S1000000x10.Idx) :
    ∃ t : Fin cfg2.N, (cfg2.win 2).flush t = true ∧ i ∈ ((cfg2.win 2).blk t).view.set := by
  have hi0 : (i 0).val < 1000000 := (i 0).isLt
  have hi1 : (i 1).val < 10 := (i 1).isLt
  have hN : cfg2.N = 50 := N_2
  obtain ⟨t, ht⟩ : ∃ t : Fin cfg2.N, t.val = (i 0).val / 20000 := ⟨⟨(i 0).val / 20000, by rw [hN]; omega⟩, rfl⟩
  obtain ⟨-, -, -, -, e4, e5⟩ := block_index2 t
  refine ⟨t, flush2_2 t, ?_⟩
  rw [mem_blk2]
  intro a
  match a with
  | ⟨0, _⟩ =>
    show win2_2.index t (0 : Fin 2) * 20000 ≤ (i 0).val ∧ (i 0).val < win2_2.index t (0 : Fin 2) * 20000 + 20000
    omega
  | ⟨1, _⟩ =>
    show win2_2.index t (1 : Fin 2) * 10 ≤ (i 1).val ∧ (i 1).val < win2_2.index t (1 : Fin 2) * 10 + 10
    omega

/-- After the whole call the output array is the entrywise product of the two operand arrays. -/
theorem arr2 (c : Dev nD) :
    (dat2 (F := Ideal) V c).arrAt 2 cfg2.N
      = mulf (F := Ideal) (s := S1000000x10) (φ := .f32) (V c main_v80) (V c main_v87) :=
  (dat2 (F := Ideal) V c).arrAt_eq_of_cover 2 _ (fun t _ => flushed2_mul V c t) cover2

end Cert.KernelIdeal.Hand

end
-- ==== Proof.KI.Value.lean ====
/-
  What the idealized kernel's @main leaves in its three result buffers, as closed functions of the argument arrays:
  the contents at each boundary of the run read back through the host stretches (the functions of the edge lists and
  the aggregation) and through each pallas_call's output array (the dense layer, the fused projection of the padded
  features, the entrywise product of the two gathers of the sample).
-/
import proofs.«100489_j86895778333433_1_alg».proof.Proof.KI.Run
import proofs.«100489_j86895778333433_1_alg».proof.Proof.KI.Tail
import proofs.«100489_j86895778333433_1_alg».proof.Proof.KI.Val0
import proofs.«100489_j86895778333433_1_alg».proof.Proof.KI.Val1
import proofs.«100489_j86895778333433_1_alg».proof.Proof.KI.Val2

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## Buffers nothing has written yet -/

theorem W1_arg (c : Dev nD) (b : Ref sig .tc) (h0 : b ∉ (hostOps0_Wl : List (Ref sig .tc))) :
    W1 m ρ c (Proc.devRef .tc b) = m ((c : Thread nD τ).loc b) :=
  StableHlo.after_of_writes_sub hostOps0 _ hostOps0_writes h0
theorem W2_arg (c : Dev nD) (b : Ref sig .tc) (h0 : b ∉ (hostOps0_Wl : List (Ref sig .tc))) (hv29 : b ≠ main_v29) :
    W2 m ρ c (Proc.devRef .tc b) = m ((c : Thread nD τ).loc b) :=
  (W2_keep m ρ c b hv29).trans (W1_arg m ρ c b h0)
/-- What the first host stretch wrote is still there when the last one starts. -/
theorem W5_of1 (c : Dev nD) (b : Ref sig .tc) (h1 : b ∉ (hostOps1_Wl : List (Ref sig .tc))) (h11 : b ∉ (hostOps1_1_Wl : List (Ref sig .tc)))
    (hv29 : b ≠ main_v29) (hv33 : b ≠ main_v33) : W5 m ρ c (Proc.devRef .tc b) = W1 m ρ c (Proc.devRef .tc b) :=
  calc W5 m ρ c (Proc.devRef .tc b)
    _ = W4 m ρ c (Proc.devRef .tc b) := W5_keep m ρ c b hv33
    _ = W3 m ρ c (Proc.devRef .tc b) := StableHlo.after_of_writes_sub hostOps1_1 _ hostOps1_1_writes h11
    _ = W2 m ρ c (Proc.devRef .tc b) := StableHlo.after_of_writes_sub hostOps1 _ hostOps1_writes h1
    _ = W1 m ρ c (Proc.devRef .tc b) := W2_keep m ρ c b hv29
theorem W5_arg (c : Dev nD) (b : Ref sig .tc) (h0 : b ∉ (hostOps0_Wl : List (Ref sig .tc))) (h1 : b ∉ (hostOps1_Wl : List (Ref sig .tc)))
    (h11 : b ∉ (hostOps1_1_Wl : List (Ref sig .tc))) (hv29 : b ≠ main_v29) (hv33 : b ≠ main_v33) :
    W5 m ρ c (Proc.devRef .tc b) = m ((c : Thread nD τ).loc b) :=
  (W5_of1 m ρ c b h1 h11 hv29 hv33).trans (W1_arg m ρ c b h0)

/-! ## The edge lists and weights, from the answers -/

theorem W5_v1 (c : Dev nD) : W5 m ρ c (Proc.devRef .tc main_v1) = rowOf (m ((c : Thread nD τ).loc main_arg1)) :=
  (W5_of1 m ρ c main_v1 (by decide) (by decide) (by decide) (by decide)).trans (ops0_v1 (W0 m ρ c))
theorem W5_v5 (c : Dev nD) : W5 m ρ c (Proc.devRef .tc main_v5) = colOf (m ((c : Thread nD τ).loc main_arg1)) :=
  (W5_of1 m ρ c main_v5 (by decide) (by decide) (by decide) (by decide)).trans (ops0_v5 (W0 m ρ c))
theorem W5_v7 (c : Dev nD) : W5 m ρ c (Proc.devRef .tc main_v7) = rows (m ((c : Thread nD τ).loc main_arg1)) :=
  (W5_of1 m ρ c main_v7 (by decide) (by decide) (by decide) (by decide)).trans (ops0_v7 (W0 m ρ c))
theorem W5_v8 (c : Dev nD) : W5 m ρ c (Proc.devRef .tc main_v8) = cols (m ((c : Thread nD τ).loc main_arg1)) :=
  (W5_of1 m ρ c main_v8 (by decide) (by decide) (by decide) (by decide)).trans (ops0_v8 (W0 m ρ c))
theorem W5_v28 (c : Dev nD) : W5 m ρ c (Proc.devRef .tc main_v28) = edgeW (rows (m ((c : Thread nD τ).loc main_arg1))) (cols (m ((c : Thread nD τ).loc main_arg1))) :=
  (W5_of1 m ρ c main_v28 (by decide) (by decide) (by decide) (by decide)).trans (ops0_v28 (W0 m ρ c))

/-! ## The two matrix products -/

/-- After the first call its output array is the dense layer of the arguments. -/
theorem W2_v29 (c : Dev nD) : W2 m ρ c (Proc.devRef .tc main_v29) = Cert.Spec.dense (m ((c : Thread nD τ).loc main_arg0)) (m ((c : Thread nD τ).loc main_arg3)) (m ((c : Thread nD τ).loc main_arg4)) := by
  refine (W2_arr m ρ c 3).trans ((arr0 (V1 m ρ) c).trans ?_)
  rw [show V1 m ρ c main_arg0 = (m ((c : Thread nD τ).loc main_arg0)) from W1_arg m ρ c main_arg0 (by decide),
    show V1 m ρ c main_arg3 = (m ((c : Thread nD τ).loc main_arg3)) from W1_arg m ρ c main_arg3 (by decide),
    show V1 m ρ c main_arg4 = (m ((c : Thread nD τ).loc main_arg4)) from W1_arg m ρ c main_arg4 (by decide)]

/-- The second call's operands: the padded node features and the two projection matrices side by side. -/
theorem W4_v32 (c : Dev nD) : W4 m ρ c (Proc.devRef .tc main_v32) = padX (Cert.Spec.dense (m ((c : Thread nD τ).loc main_arg0)) (m ((c : Thread nD τ).loc main_arg3)) (m ((c : Thread nD τ).loc main_arg4))) (m ((c : Thread nD τ).loc main_arg2)) := by
  refine (ops11_v32 (W2 m ρ c)).trans ?_
  rw [W2_v29 m ρ c, W2_arg m ρ c main_arg2 (by decide) (by decide)]
theorem W4_v31 (c : Dev nD) : W4 m ρ c (Proc.devRef .tc main_v31) = wcat (m ((c : Thread nD τ).loc main_arg5)) (m ((c : Thread nD τ).loc main_arg7)) := by
  refine (ops11_v31 (W2 m ρ c)).trans ?_
  rw [W2_arg m ρ c main_arg5 (by decide) (by decide), W2_arg m ρ c main_arg7 (by decide) (by decide)]

/-- The fused projection of the padded node features, as a function of the arguments. -/
def HK (c : Dev nD) : (⟨S110000x20, .f32⟩ : BufTy).Contents (Elt Ideal) :=
  Cert.Spec.proj (padX (Cert.Spec.dense (m ((c : Thread nD τ).loc main_arg0)) (m ((c : Thread nD τ).loc main_arg3)) (m ((c : Thread nD τ).loc main_arg4))) (m ((c : Thread nD τ).loc main_arg2))) (wcat (m ((c : Thread nD τ).loc main_arg5)) (m ((c : Thread nD τ).loc main_arg7)))

/-- After the second call its output array is that projection. -/
theorem W5_v33 (c : Dev nD) : W5 m ρ c (Proc.devRef .tc main_v33) = HK m c := by
  refine (W5_arr m ρ c 2).trans ((arr1 (V4 m ρ) c).trans ?_)
  rw [show V4 m ρ c main_v32 = _ from W4_v32 m ρ c, show V4 m ρ c main_v31 = _ from W4_v31 m ρ c]
  rfl

/-! ## The three results -/

/-- The mean, -/
def meanK (c : Dev nD) : (⟨S100500x10, .f32⟩ : BufTy).Contents (Elt Ideal) :=
  aggP (cutMean (HK m c)) (rows (m ((c : Thread nD τ).loc main_arg1))) (cols (m ((c : Thread nD τ).loc main_arg1))) (edgeW (rows (m ((c : Thread nD τ).loc main_arg1))) (cols (m ((c : Thread nD τ).loc main_arg1)))) (m ((c : Thread nD τ).loc main_arg6))
/-- the log standard deviation, -/
def lsK (c : Dev nD) : (⟨S100500x10, .f32⟩ : BufTy).Contents (Elt Ideal) :=
  aggP (cutLs (HK m c)) (rows (m ((c : Thread nD τ).loc main_arg1))) (cols (m ((c : Thread nD τ).loc main_arg1))) (edgeW (rows (m ((c : Thread nD τ).loc main_arg1))) (cols (m ((c : Thread nD τ).loc main_arg1)))) (m ((c : Thread nD τ).loc main_arg8))
/-- and the decoder's product of the sample's rows at each answer's task and worker. -/
def outK (c : Dev nD) : (⟨S1000000x10, .f32⟩ : BufTy).Contents (Elt Ideal) :=
  mulf (gat (zOf (meanK m c) (lsK m c) (m ((c : Thread nD τ).loc main_arg9))) (rowOf (m ((c : Thread nD τ).loc main_arg1)))) (gat (zOf (meanK m c) (lsK m c) (m ((c : Thread nD τ).loc main_arg9))) (colOf (m ((c : Thread nD τ).loc main_arg1))))

theorem W6_v52 (c : Dev nD) : W6 m ρ c (Proc.devRef .tc main_v52) = meanK m c := by
  refine (ops2_v52 (W5 m ρ c)).trans ?_
  rw [W5_v33, W5_v7, W5_v8, W5_v28, W5_arg m ρ c main_arg6 (by decide) (by decide) (by decide) (by decide) (by decide)]
  rfl
theorem W6_v68 (c : Dev nD) : W6 m ρ c (Proc.devRef .tc main_v68) = lsK m c := by
  refine (ops2_v68 (W5 m ρ c)).trans ?_
  rw [W5_v33, W5_v7, W5_v8, W5_v28, W5_arg m ρ c main_arg8 (by decide) (by decide) (by decide) (by decide) (by decide)]
  rfl
theorem W6_v80 (c : Dev nD) : W6 m ρ c (Proc.devRef .tc main_v80) = gat (zOf (meanK m c) (lsK m c) (m ((c : Thread nD τ).loc main_arg9))) (rowOf (m ((c : Thread nD τ).loc main_arg1))) := by
  refine (ops2_v80 (W5 m ρ c)).trans ?_
  rw [W5_v33, W5_v7, W5_v8, W5_v28, W5_v1, W5_arg m ρ c main_arg6 (by decide) (by decide) (by decide) (by decide) (by decide), W5_arg m ρ c main_arg8 (by decide) (by decide) (by decide) (by decide) (by decide), W5_arg m ρ c main_arg9 (by decide) (by decide) (by decide) (by decide) (by decide)]
  rfl
theorem W6_v87 (c : Dev nD) : W6 m ρ c (Proc.devRef .tc main_v87) = gat (zOf (meanK m c) (lsK m c) (m ((c : Thread nD τ).loc main_arg9))) (colOf (m ((c : Thread nD τ).loc main_arg1))) := by
  refine (ops2_v87 (W5 m ρ c)).trans ?_
  rw [W5_v33, W5_v7, W5_v8, W5_v28, W5_v5, W5_arg m ρ c main_arg6 (by decide) (by decide) (by decide) (by decide) (by decide), W5_arg m ρ c main_arg8 (by decide) (by decide) (by decide) (by decide) (by decide), W5_arg m ρ c main_arg9 (by decide) (by decide) (by decide) (by decide) (by decide)]
  rfl

theorem W7_v52 (c : Dev nD) : W7 m ρ c (Proc.devRef .tc main_v52) = meanK m c :=
  (W7_keep m ρ c main_v52 (by decide)).trans (W6_v52 m ρ c)
theorem W7_v68 (c : Dev nD) : W7 m ρ c (Proc.devRef .tc main_v68) = lsK m c :=
  (W7_keep m ρ c main_v68 (by decide)).trans (W6_v68 m ρ c)
theorem W7_v88 (c : Dev nD) : W7 m ρ c (Proc.devRef .tc main_v88) = outK m c := by
  refine (W7_arr m ρ c 2).trans ((arr2 (V6 m ρ) c).trans ?_)
  rw [show V6 m ρ c main_v80 = _ from W6_v80 m ρ c, show V6 m ρ c main_v87 = _ from W6_v87 m ρ c]
  rfl

/-- The idealized kernel's run with its three results named and its arguments unchanged. -/
theorem run_values : θ_run defs (onTc (τ := τ) (main (F := Ideal))) ⟨m, fun _ => 0, ρ⟩ (fun r => ∀ c : Dev nD,
      r.2.mem ((c.tc : Thread nD τ).loc main_v88) = outK m c
      ∧ r.2.mem ((c.tc : Thread nD τ).loc main_v52) = meanK m c
      ∧ r.2.mem ((c.tc : Thread nD τ).loc main_v68) = lsK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v88 (by decide))).trans (W7_v88 m ρ c),
    (h c _ (mem_uc main_v52 (by decide))).trans (W7_v52 m ρ c),
    (h c _ (mem_uc main_v68 (by decide))).trans (W7_v68 m ρ c),
    (h c _ (mem_uc main_arg0 (by decide))).trans (W7_untouched m ρ c main_arg0 (by decide) (by decide) (by decide) (by decide) (by decide) (by decide) (by decide)),
    (h c _ (mem_uc main_arg1 (by decide))).trans (W7_untouched m ρ c main_arg1 (by decide) (by decide) (by decide) (by decide) (by decide) (by decide) (by decide)),
    (h c _ (mem_uc main_arg2 (by decide))).trans (W7_untouched m ρ c main_arg2 (by decide) (by decide) (by decide) (by decide) (by decide) (by decide) (by decide)),
    (h c _ (mem_uc main_arg3 (by decide))).trans (W7_untouched m ρ c main_arg3 (by decide) (by decide) (by decide) (by decide) (by decide) (by decide) (by decide)),
    (h c _ (mem_uc main_arg4 (by decide))).trans (W7_untouched m ρ c main_arg4 (by decide) (by decide) (by decide) (by decide) (by decide) (by decide) (by decide)),
    (h c _ (mem_uc main_arg5 (by decide))).trans (W7_untouched m ρ c main_arg5 (by decide) (by decide) (by decide) (by decide) (by decide) (by decide) (by decide)),
    (h c _ (mem_uc main_arg6 (by decide))).trans (W7_untouched m ρ c main_arg6 (by decide) (by decide) (by decide) (by decide) (by decide) (by decide) (by decide)),
    (h c _ (mem_uc main_arg7 (by decide))).trans (W7_untouched m ρ c main_arg7 (by decide) (by decide) (by decide) (by decide) (by decide) (by decide) (by decide)),
    (h c _ (mem_uc main_arg8 (by decide))).trans (W7_untouched m ρ c main_arg8 (by decide) (by decide) (by decide) (by decide) (by decide) (by decide) (by decide)),
    (h c _ (mem_uc main_arg9 (by decide))).trans (W7_untouched m ρ c main_arg9 (by decide) (by decide) (by decide) (by decide) (by decide) (by decide) (by decide))⟩) (run_all m ρ)

end Cert.KernelIdeal.Hand

end
-- ==== Proof.BridgeDense.lean ====
/-
  The reference's dense layer, read index by index.

  The host computes the product of the 100000 task rows [100000, 512] with the weight matrix [512, 128], adds the bias
  (a vector of 128 entries laid out as one row and that row repeated down the 100000 rows), and takes the maximum with an
  array that is zero everywhere. At the extended reals every one of these operations is exact, so the entry (r, h) of
  the result is max ((Σ_l x(r, l)·W(l, h)) + b(h)) 0: the entry (r, h) of relu(x·W + b).
-/
import proofs.«100489_j86895778333433_1_alg».proof.Proof.Gen.KernelIdeal
import proofs.«100489_j86895778333433_1_alg».proof.Proof.Gen.ReferenceIdeal
import proofs.«100489_j86895778333433_1_alg».proof.Proof.Spec
import proofs.«100489_j86895778333433_1_alg».proof.Proof.LibDenseLayer
import Idealize.ShloMosaic.Lib.ValueIdx
import Idealize.ShloMosaic.Lib.IdealHost

noncomputable section

namespace Cert.Bridge

open Idealize.ShloMosaic Idealize.ShloMosaic.ValueIdx

/-- The zero scalar repeated over the whole array reads the extended real zero at every index. -/
theorem zeros_apply {T : Shape} (hb : (⟨0, ![]⟩ : Shape).BroadcastsInDim T ![]) (j : T.Idx) :
    broadcastInDim T ![] hb (constant (F := Ideal) ⟨0, ![]⟩ .f32 0x00000000#32) j = 0 :=
  (broadcastInDim_scalar_apply hb _ j).trans Ideal.ofBits_zero_f32

open Idealize.ShloMosaic in
/-- The reference's dense layer, as its host operations compute it, is relu(x·W + b). -/
theorem relu_host (a0 : FVec Ideal Cert.ReferenceIdeal.S100000x512 .f32) (a3 : FVec Ideal Cert.ReferenceIdeal.S512x128 .f32)
    (a4 : FVec Ideal Cert.ReferenceIdeal.S128 .f32) :
    maximumf (addf (Host.dotGeneral Cert.ReferenceIdeal.dot_S100000x512_S512x128_S100000x128_1_0_0_1_n_n none a0 a3)
        (broadcastInDim Cert.ReferenceIdeal.S100000x128 ![0, 1] Cert.ReferenceIdeal.Facts₀.bcast_S1x128_S100000x128_0_1
          (broadcastInDim Cert.ReferenceIdeal.S1x128 ![1] Cert.ReferenceIdeal.Facts₀.bcast_S128_S1x128_1 a4)))
      (broadcastInDim Cert.ReferenceIdeal.S100000x128 ![] Cert.ReferenceIdeal.Facts₀.bcast_S_S100000x128
        (constant Cert.ReferenceIdeal.S_ .f32 0x00000000#32))
    = Cert.Spec.dense a0 a3 a4 := by
  funext i
  obtain ⟨r, h, rfl⟩ : ∃ (r : Fin 100000) (h : Fin 128), i = ix2 r h := ⟨i 0, i 1, eq_ix2 i⟩
  -- the product at (r, h): row r of x against column h of W
  have hdot : Host.dotGeneral Cert.ReferenceIdeal.dot_S100000x512_S512x128_S100000x128_1_0_0_1_n_n none a0 a3 (ix2 r h)
      = ∑ l : Fin 512, a0 (ix2 r l) * a3 (ix2 l h) :=
    DenseLayer.dotGeneral_rows_apply Cert.ReferenceIdeal.Facts₀.dot_S100000x512_S512x128_S100000x128_1_0_0_1_n_n_wf
      none .single a0 a3 r h
  -- the bias at (r, h): entry h of the vector, whatever the row
  have hbias : broadcastInDim Cert.ReferenceIdeal.S100000x128 ![0, 1] Cert.ReferenceIdeal.Facts₀.bcast_S1x128_S100000x128_0_1
        (broadcastInDim Cert.ReferenceIdeal.S1x128 ![1] Cert.ReferenceIdeal.Facts₀.bcast_S128_S1x128_1 a4) (ix2 r h)
      = a4 (ix1 h) :=
    DenseLayer.bias_inDim_apply Cert.ReferenceIdeal.Facts₀.bcast_S128_S1x128_1
      Cert.ReferenceIdeal.Facts₀.bcast_S1x128_S100000x128_0_1 a4 r h
  -- the array of zeros at (r, h)
  have hzero : broadcastInDim Cert.ReferenceIdeal.S100000x128 ![] Cert.ReferenceIdeal.Facts₀.bcast_S_S100000x128
        (constant (F := Ideal) Cert.ReferenceIdeal.S_ .f32 0x00000000#32) (ix2 r h) = 0 :=
    zeros_apply Cert.ReferenceIdeal.Facts₀.bcast_S_S100000x128 (ix2 r h)
  -- the sum and the maximum are taken entry by entry
  exact congrArg₂ max (congrArg₂ (· + ·) hdot hbias) hzero

end Cert.Bridge

end
-- ==== Proof.LibConcatCols.lean ====
/-
  Two matrices side by side, read at an index, and a row of the pair against a matrix.

  An n×a matrix X followed along the columns by an n×b matrix Y is an n×(a+b) matrix whose column q is column q of X
  while q < a and column q − a of Y from there on. A sum over the a + b columns therefore splits into the sum over
  the first a and the sum over the last b, and the product of a row of the pair with a matrix W of a + b rows is the
  product of X's row with the first a rows of W plus the product of Y's row with the last b rows of W. The last
  statement needs only that addition is commutative and associative, so it holds on the extended reals with no
  finiteness assumed.
-/
import Idealize.ShloMosaic.Lib.Pipeline.Value
import Idealize.ShloMosaic.Lib.ValueIdx
import Mathlib.Algebra.BigOperators.Fin

open scoped BigOperators

noncomputable section

namespace Idealize.ShloMosaic.ConcatCols

open Idealize.ShloMosaic Idealize.ShloMosaic.ValueIdx

/-! ## The pair read at an index -/

section Read
variable {α : Type} {n a b c : ℕ}

/-- Column `q` of the pair, where `q` is a column `p` of the first matrix. -/
theorem cols_left (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (r : Fin n) (q : Fin c) (p : Fin a) (hp : q.val = p.val) :
    concatenate ⟨2, ![n, c]⟩ 1 [⟨⟨2, ![n, a]⟩, x⟩, ⟨⟨2, ![n, b]⟩, y⟩] h (ix2 r q) = x (ix2 r p) :=
  concatenate_pair_apply_left (t := ⟨2, ![n, c]⟩) (s₁ := ⟨2, ![n, a]⟩) (s₂ := ⟨2, ![n, b]⟩) 1 x y h (ix2 r q) rfl (ix2 r p)
    (fun e => by
      match e with
      | ⟨0, _⟩ => rfl
      | ⟨1, _⟩ => exact hp.symm)

/-- Column `q` of the pair, where `q` is `a` columns past a column `p` of the second matrix. -/
theorem cols_right (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (r : Fin n) (q : Fin c) (p : Fin b) (hp : q.val = a + p.val) :
    concatenate ⟨2, ![n, c]⟩ 1 [⟨⟨2, ![n, a]⟩, x⟩, ⟨⟨2, ![n, b]⟩, y⟩] h (ix2 r q) = y (ix2 r p) :=
  concatenate_pair_apply_right (t := ⟨2, ![n, c]⟩) (s₁ := ⟨2, ![n, a]⟩) (s₂ := ⟨2, ![n, b]⟩) 1 x y h (ix2 r q) rfl rfl (ix2 r p)
    (fun e he => by
      match e with
      | ⟨0, _⟩ => rfl
      | ⟨1, _⟩ => exact absurd rfl he)
    (by show p.val + a = q.val; omega)

end Read

/-! ## A sum over the pair's columns -/

/-- A sum over `c = a + b` positions: the first `a`, then the last `b`. -/
theorem sum_split {M : Type*} [AddCommMonoid M] {a b c : ℕ} (hc : c = a + b) (f : Fin c → M) :
    ∑ q : Fin c, f q
      = (∑ p : Fin a, f ⟨p.val, by have := p.isLt; omega⟩) + ∑ p : Fin b, f ⟨a + p.val, by have := p.isLt; omega⟩ := by
  subst hc
  exact Fin.sum_univ_add f

/-- Row `r` of the pair against column `j` of a matrix `W` of `c = a + b` rows: the first matrix's row against
    W's first `a` rows plus the second's against its last `b`. -/
theorem row_mul {M : Type} [AddCommMonoid M] [Mul M] {n a b c k : ℕ} (hc : c = a + b)
    (x : (⟨2, ![n, a]⟩ : Shape).Idx → M) (y : (⟨2, ![n, b]⟩ : Shape).Idx → M)
    (h : Shape.Concatenates [(⟨2, ![n, a]⟩ : Shape), ⟨2, ![n, b]⟩] ⟨2, ![n, c]⟩ 1)
    (W : (⟨2, ![c, k]⟩ : Shape).Idx → M) (r : Fin n) (j : Fin k) :
    ∑ q : Fin c, concatenate ⟨2, ![n, c]⟩ 1 [⟨⟨2, ![n, a]⟩, x⟩, ⟨⟨2, ![n, b]⟩, y⟩] h (ix2 r q) * W (ix2 q j)
      = (∑ p : Fin a, x (ix2 r p) * W (ix2 ⟨p.val, by have := p.isLt; omega⟩ j))
        + ∑ p : Fin b, y (ix2 r p) * W (ix2 ⟨a + p.val, by have := p.isLt; omega⟩ j) := by
  rw [sum_split hc]
  congr 1
  · refine Finset.sum_congr rfl fun p _ => ?_
    rw [cols_left x y h r _ p rfl]
  · refine Finset.sum_congr rfl fun p _ => ?_
    rw [cols_right x y h r _ p rfl]

end Idealize.ShloMosaic.ConcatCols

end
-- ==== Proof.LibPadReads.lean ====
/-
  Reads of padded arrays, of columns, and a sum whose tail vanishes.

  A vector [n] or a matrix [n, b] followed by k entries (rows) of a padding value reads, below n, as the original and,
  from n on, as the padding value.  A vector laid down a column [n, 1] and a column repeated along b columns read their
  entry p at row p.  The integer zero converted to a float is the real zero at the ideal values.  A sum over a + b
  positions whose last b terms are zero is the sum over the first a.
-/
import Idealize.ShloMosaic.PureOps.Ideal.Laws
import Idealize.ShloMosaic.Lib.KernelVsHost
import Idealize.ShloMosaic.Lib.Pipeline.Value
import Idealize.ShloMosaic.Lib.ValueIdx
import Mathlib.Algebra.BigOperators.Fin

noncomputable section

open scoped BigOperators

namespace Idealize.ShloMosaic.PadReads

open Idealize.ShloMosaic Idealize.ShloMosaic.ValueIdx

variable {α : Type}

/-- The padding value: the integer zero converted is the real zero. -/
theorem pad_value (i : (⟨0, ![]⟩ : Shape).Idx) : sitofp (F := Ideal) .f32 (constantI ⟨0, ![]⟩ 32 0#32) i = 0 := by
  show (((0#32 : BitVec 32).toInt : ℝ) : EReal) = 0
  simp

/-- A vector [n] laid down a column [n, 1], read at (p, u): the vector's entry p. -/
theorem col_apply {n : ℕ} (hn : n ≠ 1) (h : (⟨1, ![n]⟩ : Shape).BroadcastsInDim ⟨2, ![n, 1]⟩ ![0])
    (y : (⟨1, ![n]⟩ : Shape).Idx → α) (p : Fin n) (u : Fin 1) :
    broadcastInDim ⟨2, ![n, 1]⟩ ![0] h y (ix2 p u) = y (ix1 p) :=
  broadcastInDim_apply ![0] h y (ix2 p u) (ix1 p) fun a => by
    match a with
    | ⟨0, _⟩ => show p.val = if n = 1 then 0 else p.val; rw [if_neg hn]

/-- A column [n, 1] repeated along b columns, read at (p, e): the column's entry p. -/
theorem cols_apply {n b : ℕ} (hn : n ≠ 1) (h : (⟨2, ![n, 1]⟩ : Shape).BroadcastsInDim ⟨2, ![n, b]⟩ ![0, 1])
    (y : (⟨2, ![n, 1]⟩ : Shape).Idx → α) (p : Fin n) (e : Fin b) :
    broadcastInDim ⟨2, ![n, b]⟩ ![0, 1] h y (ix2 p e) = y (ix2 p (0 : Fin 1)) :=
  broadcastInDim_apply ![0, 1] h y (ix2 p e) (ix2 p (0 : Fin 1)) fun a => by
    match a with
    | ⟨0, _⟩ => show p.val = if n = 1 then 0 else p.val; rw [if_neg hn]
    | ⟨1, _⟩ => show 0 = if (1 : ℕ) = 1 then 0 else e.val; rw [if_pos rfl]

/-- A vector [n] followed by k entries of padding, read below n: the vector. -/
theorem padv_head {n k N : ℕ} {u : Shape} (h : (⟨1, ![n]⟩ : Shape).Pads ![0] ![k] ![0] ⟨1, ![N]⟩) (hu : 0 < u.numel)
    (x : (⟨1, ![n]⟩ : Shape).Idx → α) (v : u.Idx → α) (q : Fin N) (p : Fin n) (hq : q.val = p.val) :
    pad ⟨1, ![N]⟩ ![0] ![k] ![0] x v h hu (ix1 q) = x (ix1 p) :=
  pad_apply_of_inside ![0] ![k] ![0] x v h hu (ix1 q) (ix1 p) fun a => by
    match a with
    | ⟨0, _⟩ => show q.val = 0 + p.val * (0 + 1); omega

/-- … read from n on: the padding value. -/
theorem padv_tail {n k N : ℕ} {u : Shape} (h : (⟨1, ![n]⟩ : Shape).Pads ![0] ![k] ![0] ⟨1, ![N]⟩) (hu : 0 < u.numel)
    (x : (⟨1, ![n]⟩ : Shape).Idx → α) (v : u.Idx → α) (q : Fin N) (hq : n ≤ q.val) :
    pad ⟨1, ![N]⟩ ![0] ![k] ![0] x v h hu (ix1 q) = v (Shape.Idx.first hu) :=
  pad_apply_of_not_inside ![0] ![k] ![0] x v h hu (ix1 q) 0 fun hin => by
    have h3 : (q.val - 0) / (0 + 1) < n := hin.2.2
    omega

/-- A matrix [n, b] followed by k rows of padding, read at a row below n: the matrix. -/
theorem padm_head {n b k N : ℕ} {u : Shape} (h : (⟨2, ![n, b]⟩ : Shape).Pads ![0, 0] ![k, 0] ![0, 0] ⟨2, ![N, b]⟩) (hu : 0 < u.numel)
    (x : (⟨2, ![n, b]⟩ : Shape).Idx → α) (v : u.Idx → α) (q : Fin N) (p : Fin n) (hq : q.val = p.val) (e : Fin b) :
    pad ⟨2, ![N, b]⟩ ![0, 0] ![k, 0] ![0, 0] x v h hu (ix2 q e) = x (ix2 p e) :=
  pad_apply_of_inside ![0, 0] ![k, 0] ![0, 0] x v h hu (ix2 q e) (ix2 p e) fun a => by
    match a with
    | ⟨0, _⟩ => show q.val = 0 + p.val * (0 + 1); omega
    | ⟨1, _⟩ => show e.val = 0 + e.val * (0 + 1); omega

/-- … read at a row from n on: the padding value. -/
theorem padm_tail {n b k N : ℕ} {u : Shape} (h : (⟨2, ![n, b]⟩ : Shape).Pads ![0, 0] ![k, 0] ![0, 0] ⟨2, ![N, b]⟩) (hu : 0 < u.numel)
    (x : (⟨2, ![n, b]⟩ : Shape).Idx → α) (v : u.Idx → α) (q : Fin N) (hq : n ≤ q.val) (e : Fin b) :
    pad ⟨2, ![N, b]⟩ ![0, 0] ![k, 0] ![0, 0] x v h hu (ix2 q e) = v (Shape.Idx.first hu) :=
  pad_apply_of_not_inside ![0, 0] ![k, 0] ![0, 0] x v h hu (ix2 q e) 0 fun hin => by
    have h3 : (q.val - 0) / (0 + 1) < n := hin.2.2
    omega

/-- A sum over a + b positions whose last b terms vanish is the sum over the first a. -/
theorem sum_drop_tail {M : Type*} [AddCommMonoid M] {a b : ℕ} (f : Fin (a + b) → M) (hz : ∀ p : Fin b, f (Fin.natAdd a p) = 0) :
    ∑ q, f q = ∑ p : Fin a, f (Fin.castAdd b p) := by
  rw [Fin.sum_univ_add, Finset.sum_eq_zero (fun p _ => hz p), add_zero]

end Idealize.ShloMosaic.PadReads

end
-- ==== Proof.BridgeProj.lean ====
/-
  The fused projection against the two plain products.

  The node features x (100000 rows) stacked over a2 (500 rows) form a 100500x128 matrix C. One program follows C by
  9500 rows of zeros, multiplies the 110000x128 result by the 128x20 matrix [a5 | a7] holding the two 128x10 weight
  matrices side by side, and cuts the product back to its first 100500 rows and then to columns 0..9, resp. 10..19.
  The other multiplies C by a5, resp. a7. At (r, j) with r < 100500 and j < 10 both read
  the sum over l < 128 of C(r, l) * a5(l, j), resp. C(r, l) * a7(l, j): a row below 100500 of the padded matrix is a row of
  C, and column j, resp. 10 + j, of the pair is column j of a5, resp. a7. Nothing is assumed finite.
-/
import proofs.«100489_j86895778333433_1_alg».proof.Proof.Gen.KernelIdeal
import proofs.«100489_j86895778333433_1_alg».proof.Proof.Gen.ReferenceIdeal
import proofs.«100489_j86895778333433_1_alg».proof.Proof.Spec
import proofs.«100489_j86895778333433_1_alg».proof.Proof.LibDenseLayer
import proofs.«100489_j86895778333433_1_alg».proof.Proof.LibConcatCols
import proofs.«100489_j86895778333433_1_alg».proof.Proof.LibPadReads
import Idealize.ShloMosaic.Lib.ValueIdx
import Idealize.ShloMosaic.Lib.ValueLayout

noncomputable section

namespace Cert.Bridge

open Idealize.ShloMosaic Idealize.ShloMosaic.ValueIdx
open scoped BigOperators

/-- The fused product cut back to its first 100500 rows, read at (r, c): row r of the stacked features against
    column c of the pair of weight matrices. -/
theorem fused_apply (x : FVec Ideal Cert.KernelIdeal.S100000x128 .f32) (a2 : FVec Ideal Cert.KernelIdeal.S500x128 .f32)
    (a5 a7 : FVec Ideal Cert.KernelIdeal.S128x10 .f32) (r : Fin 100500) (c : Fin 20) :
    extractStridedSlice Cert.KernelIdeal.S100500x20 ![0, 0]
        (Cert.Spec.proj
          (pad Cert.KernelIdeal.S110000x128 ![0, 0] ![9500, 0] ![0, 0]
            (concatenate Cert.KernelIdeal.S100500x128 0 [⟨Cert.KernelIdeal.S100000x128, x⟩, ⟨Cert.KernelIdeal.S500x128, a2⟩] Cert.KernelIdeal.Facts₀.concatenates_S100000x128_S500x128_S100500x128_d0)
            (sitofp (F := Ideal) .f32 (constantI Cert.KernelIdeal.S_ 32 0#32)) Cert.KernelIdeal.Facts₀.pads_S100500x128_S110000x128_095000_000 Cert.KernelIdeal.Facts₀.h_S_)
          (concatenate Cert.KernelIdeal.S128x20 1 [⟨Cert.KernelIdeal.S128x10, a5⟩, ⟨Cert.KernelIdeal.S128x10, a7⟩] Cert.KernelIdeal.Facts₀.concatenates_S128x10_S128x10_S128x20_d1))
        Cert.KernelIdeal.Facts₀.slices_S110000x20_S100500x20_0_0 (ix2 r c)
      = ∑ l : Fin 128,
          concatenate Cert.KernelIdeal.S100500x128 0 [⟨Cert.KernelIdeal.S100000x128, x⟩, ⟨Cert.KernelIdeal.S500x128, a2⟩] Cert.KernelIdeal.Facts₀.concatenates_S100000x128_S500x128_S100500x128_d0 (ix2 r l)
            * concatenate Cert.KernelIdeal.S128x20 1 [⟨Cert.KernelIdeal.S128x10, a5⟩, ⟨Cert.KernelIdeal.S128x10, a7⟩] Cert.KernelIdeal.Facts₀.concatenates_S128x10_S128x10_S128x20_d1 (ix2 l c) := by
  have hr := r.isLt
  refine (slice2_axis0_apply 0 _ _ r c (⟨r.val, by omega⟩ : Fin 110000) (Nat.zero_add _).symm).trans ?_
  refine (Cert.Spec.proj_apply _ _ _ _).trans ?_
  refine Finset.sum_congr rfl fun l _ => ?_
  congr 1
  exact PadReads.padm_head _ _ _ _ (⟨r.val, by omega⟩ : Fin 110000) r rfl l

/-- Columns 0..9 of the fused product, on its first 100500 rows, are the stacked features times the first weight
    matrix. -/
theorem mean_eq (x : FVec Ideal Cert.KernelIdeal.S100000x128 .f32) (a2 : FVec Ideal Cert.KernelIdeal.S500x128 .f32)
    (a5 a7 : FVec Ideal Cert.KernelIdeal.S128x10 .f32) :
    extractStridedSlice Cert.KernelIdeal.S100500x10 ![0, 0]
      (extractStridedSlice Cert.KernelIdeal.S100500x20 ![0, 0]
        (Cert.Spec.proj
          (pad Cert.KernelIdeal.S110000x128 ![0, 0] ![9500, 0] ![0, 0]
            (concatenate Cert.KernelIdeal.S100500x128 0 [⟨Cert.KernelIdeal.S100000x128, x⟩, ⟨Cert.KernelIdeal.S500x128, a2⟩] Cert.KernelIdeal.Facts₀.concatenates_S100000x128_S500x128_S100500x128_d0)
            (sitofp (F := Ideal) .f32 (constantI Cert.KernelIdeal.S_ 32 0#32)) Cert.KernelIdeal.Facts₀.pads_S100500x128_S110000x128_095000_000 Cert.KernelIdeal.Facts₀.h_S_)
          (concatenate Cert.KernelIdeal.S128x20 1 [⟨Cert.KernelIdeal.S128x10, a5⟩, ⟨Cert.KernelIdeal.S128x10, a7⟩] Cert.KernelIdeal.Facts₀.concatenates_S128x10_S128x10_S128x20_d1))
        Cert.KernelIdeal.Facts₀.slices_S110000x20_S100500x20_0_0)
      Cert.KernelIdeal.Facts₀.slices_S100500x20_S100500x10_0_0
    = Host.dotGeneral Cert.ReferenceIdeal.dot_S100500x128_S128x10_S100500x10_1_0_0_1_n_n none
        (concatenate Cert.ReferenceIdeal.S100500x128 0 [⟨Cert.ReferenceIdeal.S100000x128, x⟩, ⟨Cert.ReferenceIdeal.S500x128, a2⟩] Cert.ReferenceIdeal.Facts₀.concatenates_S100000x128_S500x128_S100500x128_d0) a5 := by
  funext i
  obtain ⟨r, j, rfl⟩ : ∃ (r : Fin 100500) (j : Fin 10), i = ix2 r j := ⟨i 0, i 1, eq_ix2 i⟩
  have hj := j.isLt
  refine (slice2_axis1_apply 0 _ _ r j (⟨j.val, by omega⟩ : Fin 20) (Nat.zero_add _).symm).trans ?_
  refine (fused_apply x a2 a5 a7 r _).trans ?_
  refine Eq.trans ?_ (DenseLayer.dotGeneral_rows_apply Cert.ReferenceIdeal.Facts₀.dot_S100500x128_S128x10_S100500x10_1_0_0_1_n_n_wf none .single _ a5 r j).symm
  refine Finset.sum_congr rfl fun l _ => ?_
  congr 1
  exact ConcatCols.cols_left a5 a7 _ l _ j rfl

/-- Columns 10..19 of the fused product, on its first 100500 rows, are the stacked features times the second weight
    matrix. -/
theorem logstd_eq (x : FVec Ideal Cert.KernelIdeal.S100000x128 .f32) (a2 : FVec Ideal Cert.KernelIdeal.S500x128 .f32)
    (a5 a7 : FVec Ideal Cert.KernelIdeal.S128x10 .f32) :
    extractStridedSlice Cert.KernelIdeal.S100500x10 ![0, 10]
      (extractStridedSlice Cert.KernelIdeal.S100500x20 ![0, 0]
        (Cert.Spec.proj
          (pad Cert.KernelIdeal.S110000x128 ![0, 0] ![9500, 0] ![0, 0]
            (concatenate Cert.KernelIdeal.S100500x128 0 [⟨Cert.KernelIdeal.S100000x128, x⟩, ⟨Cert.KernelIdeal.S500x128, a2⟩] Cert.KernelIdeal.Facts₀.concatenates_S100000x128_S500x128_S100500x128_d0)
            (sitofp (F := Ideal) .f32 (constantI Cert.KernelIdeal.S_ 32 0#32)) Cert.KernelIdeal.Facts₀.pads_S100500x128_S110000x128_095000_000 Cert.KernelIdeal.Facts₀.h_S_)
          (concatenate Cert.KernelIdeal.S128x20 1 [⟨Cert.KernelIdeal.S128x10, a5⟩, ⟨Cert.KernelIdeal.S128x10, a7⟩] Cert.KernelIdeal.Facts₀.concatenates_S128x10_S128x10_S128x20_d1))
        Cert.KernelIdeal.Facts₀.slices_S110000x20_S100500x20_0_0)
      Cert.KernelIdeal.Facts₀.slices_S100500x20_S100500x10_0_10
    = Host.dotGeneral Cert.ReferenceIdeal.dot_S100500x128_S128x10_S100500x10_1_0_0_1_n_n none
        (concatenate Cert.ReferenceIdeal.S100500x128 0 [⟨Cert.ReferenceIdeal.S100000x128, x⟩, ⟨Cert.ReferenceIdeal.S500x128, a2⟩] Cert.ReferenceIdeal.Facts₀.concatenates_S100000x128_S500x128_S100500x128_d0) a7 := by
  funext i
  obtain ⟨r, j, rfl⟩ : ∃ (r : Fin 100500) (j : Fin 10), i = ix2 r j := ⟨i 0, i 1, eq_ix2 i⟩
  have hj := j.isLt
  refine (slice2_axis1_apply 10 _ _ r j (⟨10 + j.val, by omega⟩ : Fin 20) rfl).trans ?_
  refine (fused_apply x a2 a5 a7 r _).trans ?_
  refine Eq.trans ?_ (DenseLayer.dotGeneral_rows_apply Cert.ReferenceIdeal.Facts₀.dot_S100500x128_S128x10_S100500x10_1_0_0_1_n_n_wf none .single _ a7 r j).symm
  refine Finset.sum_congr rfl fun l _ => ?_
  congr 1
  exact ConcatCols.cols_right a5 a7 _ l _ j rfl

end Cert.Bridge

end
-- ==== Proof.RefSide.lean ====
/-
  The reference's three results are the idealized kernel's. From memories that agree on the arguments the
  reference's composed terms are the kernel's closed functions: the host operations around the matrix products are the
  same on both sides, the reference's dense layer is relu(x·W + b) entry by entry, and a column block of the fused
  projection of the zero-padded features is the plain product with that block's matrix.
-/
import proofs.«100489_j86895778333433_1_alg».proof.Proof.KI.Value
import proofs.«100489_j86895778333433_1_alg».proof.Proof.BridgeDense
import proofs.«100489_j86895778333433_1_alg».proof.Proof.BridgeProj
import proofs.«100489_j86895778333433_1_alg».proof.Proof.Gen.ReferenceIdeal.Run

set_option maxRecDepth 16384

noncomputable section

namespace Cert.Bridge

open Idealize.ShloMosaic Idealize.ShloMosaic.TcCoe Idealize.SL.Sem
open Cert.KernelIdeal.Hand

/-- The reference's dense layer as its host operations compute it. -/
def reluR (a0 : FVec Ideal Cert.ReferenceIdeal.S100000x512 .f32) (a3 : FVec Ideal Cert.ReferenceIdeal.S512x128 .f32) (a4 : FVec Ideal Cert.ReferenceIdeal.S128 .f32) :
    FVec Ideal Cert.ReferenceIdeal.S100000x128 .f32 :=
  maximumf (addf (Host.dotGeneral Cert.ReferenceIdeal.dot_S100000x512_S512x128_S100000x128_1_0_0_1_n_n none a0 a3)
      (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 a4)))
    (broadcastInDim Cert.ReferenceIdeal.S100000x128 ![] Cert.ReferenceIdeal.Facts₀.bcast_S_S100000x128 (constant Cert.ReferenceIdeal.S_ .f32 0x00000000#32))

/-- The reference's projection of the node features with one of the two weight matrices. -/
def projR (a0 : FVec Ideal Cert.ReferenceIdeal.S100000x512 .f32) (a3 : FVec Ideal Cert.ReferenceIdeal.S512x128 .f32) (a4 : FVec Ideal Cert.ReferenceIdeal.S128 .f32)
    (a2 : FVec Ideal Cert.ReferenceIdeal.S500x128 .f32) (w : FVec Ideal Cert.ReferenceIdeal.S128x10 .f32) : FVec Ideal Cert.ReferenceIdeal.S100500x10 .f32 :=
  Host.dotGeneral Cert.ReferenceIdeal.dot_S100500x128_S128x10_S100500x10_1_0_0_1_n_n none
    (concatenate Cert.ReferenceIdeal.S100500x128 0 [⟨Cert.ReferenceIdeal.S100000x128, reluR a0 a3 a4⟩, ⟨Cert.ReferenceIdeal.S500x128, a2⟩] Cert.ReferenceIdeal.Facts₀.concatenates_S100000x128_S500x128_S100500x128_d0) w

variable (m : (ℓ : Loc Cert.KernelIdeal.nD Cert.KernelIdeal.τ Cert.KernelIdeal.sig) → Buf (Elt Ideal) ℓ) (c : Dev Cert.KernelIdeal.nD)

/-- The kernel's two column blocks are the reference's two projections. -/
theorem cutMean_HK : cutMean (HK m c) = projR (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg2)) (m ((c : Thread Cert.KernelIdeal.nD Cert.KernelIdeal.τ).loc Cert.KernelIdeal.main_arg5)) := by
  unfold projR reluR
  rw [relu_host]
  exact mean_eq _ _ _ _
theorem cutLs_HK : cutLs (HK m c) = projR (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg2)) (m ((c : Thread Cert.KernelIdeal.nD Cert.KernelIdeal.τ).loc Cert.KernelIdeal.main_arg7)) := by
  unfold projR reluR
  rw [relu_host]
  exact logstd_eq _ _ _ _

variable (m' : (ℓ : Loc Cert.ReferenceIdeal.nD Cert.ReferenceIdeal.τ Cert.ReferenceIdeal.sig) → Buf (Elt Ideal) ℓ)

/-- The two memories agree on the ten arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

set_option maxHeartbeats 4000000 in
theorem ref_mean (h : Agree m c m') : Cert.ReferenceIdeal.Value.res_main_v51 m' c = meanK m c := by
  obtain ⟨h0, h1, h2, h3, h4, h5, h6, h7, h8, h9⟩ := h
  unfold meanK
  rw [cutMean_HK]
  unfold Cert.ReferenceIdeal.Value.res_main_v51
  rw [h0, h1, h2, h3, h4, h5, h6]
  rfl

set_option maxHeartbeats 4000000 in
theorem ref_ls (h : Agree m c m') : Cert.ReferenceIdeal.Value.res_main_v68 m' c = lsK m c := by
  obtain ⟨h0, h1, h2, h3, h4, h5, h6, h7, h8, h9⟩ := h
  unfold lsK
  rw [cutLs_HK]
  unfold Cert.ReferenceIdeal.Value.res_main_v68
  rw [h0, h1, h2, h3, h4, h7, h8]
  rfl

set_option maxHeartbeats 16000000 in
theorem ref_out (h : Agree m c m') : Cert.ReferenceIdeal.Value.res_main_v88 m' c = outK m c := by
  obtain ⟨h0, h1, h2, h3, h4, h5, h6, h7, h8, h9⟩ := h
  unfold outK meanK lsK
  rw [cutMean_HK, cutLs_HK]
  unfold Cert.ReferenceIdeal.Value.res_main_v88
  rw [h0, h1, h2, h3, h4, h5, h6, h7, h8, h9]
  rfl

end Cert.Bridge

end
-- ==== Proof.lean ====
/-
  The certificate of the graph-convolution encoder with its inner-product decoder: a dense layer relu(x·W + b) on the
  task features, the node features (tasks over workers) projected by two 128x10 matrices, each projection aggregated
  along the normalised edges of the answer graph with its bias (the mean and the log standard deviation), the sample
  z = mean + 0.01·eps·exp(log_std), and for every answer the entrywise product of z at its task and at its worker.

  The kernel runs three pallas_calls among host operations: the dense layer in 50 blocks of 2000 rows; one fused
  projection of the node features, padded with zero rows to 110000, with the two weight matrices side by side, in 11
  blocks of 10000 rows, whose result is cut back to the 100500 nodes and to its two column blocks; and the decoder's
  product in 50 blocks of 20000 rows. Both programs' frames: @main is run as seven segments over the library's
  several-regions launch, every unscoped buffer at known contents between two items; no item writes an argument.
  The values, over the extended reals: each call's output array is one whole-array function of its operands (the blocks
  tile the rows); a column block of the fused product of the zero-padded features is the plain product with that
  block's matrix (a padded row is never kept, a column of the pair is a column of one matrix), the reference's dense
  layer is the same sum, maximum and bias entry by entry, and every other operation is the same on both sides. No law
  of the extended reals beyond reading sums index by index is used, so the precondition is never opened.
-/
import proofs.«100489_j86895778333433_1_alg».proof.Defs
import proofs.«100489_j86895778333433_1_alg».proof.Proof.Gen.Kernel
import proofs.«100489_j86895778333433_1_alg».proof.Proof.Gen.KernelIdeal
import proofs.«100489_j86895778333433_1_alg».proof.Proof.Gen.ReferenceIdeal
import proofs.«100489_j86895778333433_1_alg».proof.Proof.Gen.ReferenceIdeal.Run
import proofs.«100489_j86895778333433_1_alg».proof.Proof.Gen.Pre_finite_inputs
import proofs.«100489_j86895778333433_1_alg».proof.Proof.KB.Run
import proofs.«100489_j86895778333433_1_alg».proof.Proof.KI.Run
import proofs.«100489_j86895778333433_1_alg».proof.Proof.KI.Value
import proofs.«100489_j86895778333433_1_alg».proof.Proof.RefSide
import Idealize.ShloMosaic.Adequacy
import Idealize.ShloMosaic.Init

noncomputable section

namespace Cert.Proof

open Idealize.ShloMosaic Idealize.SL.Sem

/-- The word-level kernel runs to the end and leaves its arguments unchanged. -/
theorem frame_k [Cert.Pre_finite_inputs.Facts] : Cert.frame_Kernel := fun m ρ _ => Cert.Kernel.Hand.frame m ρ

/-- So does the idealized kernel. -/
theorem frame_ki [Cert.Pre_finite_inputs.Facts] : Cert.frame_KernelIdeal := fun m ρ _ => Cert.KernelIdeal.Hand.frame m ρ

/-- The reference is host operations only: its run with the results dropped. -/
theorem frame_ri [Cert.Pre_finite_inputs.Facts] : Cert.frame_ReferenceIdeal := fun m ρ _ =>
  (θ_run Cert.ReferenceIdeal.defs _ _).mono (fun _ h c => (h c).2.2.2) (Cert.ReferenceIdeal.Value.run (F := Ideal) m ρ)

/-- From memories that agree on the arguments both idealized programs end with the same three results: the kernel's
    closed functions of the arguments, which the reference's composed terms equal. -/
theorem algebraic [Cert.Pre_finite_inputs.Facts] : Cert.algebraic_KernelIdeal_ReferenceIdeal := by
  intro m ρ m' ρ' _ hagree
  refine ⟨fun c => Cert.KernelIdeal.Hand.outK m c, fun c => Cert.KernelIdeal.Hand.meanK m c, fun c => Cert.KernelIdeal.Hand.lsK m c,
    Cert.KernelIdeal.Hand.run_values m ρ, ?_⟩
  refine (θ_run Cert.ReferenceIdeal.defs _ _).mono (fun r h c => ?_) (Cert.ReferenceIdeal.Value.run (F := Ideal) m' ρ')
  obtain ⟨h88, h51, h68, hargs⟩ := h c
  exact ⟨h88.trans (Cert.Bridge.ref_out m c m' (hagree c)), h51.trans (Cert.Bridge.ref_mean m c m' (hagree c)),
    h68.trans (Cert.Bridge.ref_ls m c m' (hagree c)), hargs⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
